-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S25x256 : S_.BroadcastsInDim S25x256 (![] : Fin 0 → Fin S25x256.rank)
  reducesTo_S25x256_S_d0_1 : S25x256.ReducesTo [0, 1] S_
  bcast_S_S3x25 : S_.BroadcastsInDim S3x25 (![] : Fin 0 → Fin S3x25.rank)
  reducesTo_S3x25_S_d0_1 : S3x25.ReducesTo [0, 1] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg4 : FVec F S3x256 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3x256 .f32 := Host.absf main_arg4
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S32x256x56x56 .f32) (main_arg1 : FVec F S25x256 .f32) (main_arg2 : FVec F S3x25 .f32) (main_arg3 : FVec F S3x256 .f32) (main_arg4 : FVec F S3x256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S25x256 .f32 := Host.absf main_arg1
  let main_cst_0 : FVec F S_ .f32 := constant S_ .f32 0x7F800000#32
  let main_v5 : FVec F S25x256 .f32 := broadcastInDim S25x256 ![] bcast_S_S25x256 main_cst_0
  let main_v6 : IVec S25x256 1 := cmpf .olt main_v4 main_v5
  let main_c_1 : IVec S_ 1 := constantI S_ 1 1#1
  let main_v7 : IVec S_ 1 := (fun x v => Host.reduce IntOp.andi x v reducesTo_S25x256_S_d0_1 h_S_) main_v6 main_c_1
  let main_v8 : IVec S_ 1 := andi main_v3 main_v7
  let main_v9 : FVec F S3x25 .f32 := Host.absf main_arg2
  let main_cst_2 : FVec F S_ .f32 := constant S_ .f32 0x7F800000#32
  let main_v10 : FVec F S3x25 .f32 := broadcastInDim S3x25 ![] bcast_S_S3x25 main_cst_2
  let main_v11 : IVec S3x25 1 := cmpf .olt main_v9 main_v10
  let main_c_3 : IVec S_ 1 := constantI S_ 1 1#1
  let main_v12 : IVec S_ 1 := (fun x v => Host.reduce IntOp.andi x v reducesTo_S3x25_S_d0_1 h_S_) main_v11 main_c_3
  let main_v13 : IVec S_ 1 := andi main_v8 main_v12
  let main_v14 : FVec F S3x256 .f32 := Host.absf main_arg3
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg4 main_v13 main_v16
-- ==== Kernel.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S32x256x1 : Shape := ⟨3, ![32, 256, 1]⟩
abbrev S2x256x56x56 : Shape := ⟨4, ![2, 256, 56, 56]⟩
abbrev S2x256x1 : Shape := ⟨3, ![2, 256, 1]⟩
abbrev S2x256x56 : Shape := ⟨3, ![2, 256, 56]⟩
abbrev S2x256 : Shape := ⟨2, ![2, 256]⟩
abbrev S32x256 : Shape := ⟨2, ![32, 256]⟩
abbrev S_ : Shape := ⟨0, ![]⟩
abbrev S256 : Shape := ⟨1, ![256]⟩
abbrev S256x25 : Shape := ⟨2, ![256, 25]⟩
abbrev S32x25 : Shape := ⟨2, ![32, 25]⟩
abbrev S25x3 : Shape := ⟨2, ![25, 3]⟩
abbrev S32x3 : Shape := ⟨2, ![32, 3]⟩
abbrev S32 : Shape := ⟨1, ![32]⟩
abbrev S32x1 : Shape := ⟨2, ![32, 1]⟩
abbrev S1x256 : Shape := ⟨2, ![1, 256]⟩
abbrev S32x256x1x1 : Shape := ⟨4, ![32, 256, 1, 1]⟩
abbrev S2x256x1x1 : Shape := ⟨4, ![2, 256, 1, 1]⟩

abbrev nBuf : Space → Nat
  | .hbm => 68
  | .vmem => 14
  | .smem => 0
  | _ => 0

abbrev bufTy : (tb : Table) → Fin (tcTables nBuf tb) → BufTy
  | .hbm, ⟨0, _⟩ => ⟨S32x256x56x56, .f32⟩
  | .hbm, ⟨1, _⟩ => ⟨S25x256, .f32⟩
  | .hbm, ⟨2, _⟩ => ⟨S3x25, .f32⟩
  | .hbm, ⟨3, _⟩ => ⟨S3x256, .f32⟩
  | .hbm, ⟨4, _⟩ => ⟨S3x256, .f32⟩
  | .hbm, ⟨5, _⟩ => ⟨S32x256x1, .f32⟩
  | .hbm, ⟨6, _⟩ => ⟨S32x256x1, .f32⟩
  | .hbm, ⟨7, _⟩ => ⟨S32x256, .f32⟩
  | .hbm, ⟨8, _⟩ => ⟨S32x256, .f32⟩
  | .hbm, ⟨9, _⟩ => ⟨S_, .f32⟩
  | .hbm, ⟨10, _⟩ => ⟨S32x256, .f32⟩
  | .hbm, ⟨11, _⟩ => ⟨S32x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256x25, .f32⟩
  | .hbm, ⟨25, _⟩ => ⟨S32x25, .f32⟩
  | .hbm, ⟨26, _⟩ => ⟨S_, .f32⟩
  | .hbm, ⟨27, _⟩ => ⟨S32x25, .f32⟩
  | .hbm, ⟨28, _⟩ => ⟨S32x25, .i1⟩
  | .hbm, ⟨29, _⟩ => ⟨S_, .f32⟩
  | .hbm, ⟨30, _⟩ => ⟨S32x25, .f32⟩
  | .hbm, ⟨31, _⟩ => ⟨S32x25, .f32⟩
  | .hbm, ⟨32, _⟩ => ⟨S32x25, .f32⟩
  | .hbm, ⟨33, _⟩ => ⟨S25x3, .f32⟩
  | .hbm, ⟨34, _⟩ => ⟨S32x3, .f32⟩
  | .hbm, ⟨35, _⟩ => ⟨S_, .f32⟩
  | .hbm, ⟨36, _⟩ => ⟨S32x3, .f32⟩
  | .hbm, ⟨37, _⟩ => ⟨S32x3, .f32⟩
  | .hbm, ⟨38, _⟩ => ⟨S_, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S32x1, .f32⟩
  | .hbm, ⟨44, _⟩ => ⟨S32x3, .f32⟩
  | .hbm, ⟨45, _⟩ => ⟨S32x3, .f32⟩
  | .hbm, ⟨46, _⟩ => ⟨S32x3, .f32⟩
  | .hbm, ⟨47, _⟩ => ⟨S_, .f32⟩
  | .hbm, ⟨48, _⟩ => ⟨S32, .f32⟩
  | .hbm, ⟨49, _⟩ => ⟨S32x1, .f32⟩
  | .hbm, ⟨50, _⟩ => ⟨S32x3, .f32⟩
  | .hbm, ⟨51, _⟩ => ⟨S32x3, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S32x256, .f32⟩
  | .hbm, ⟨57, _⟩ => ⟨S32x256, .f32⟩
  | .hbm, ⟨58, _⟩ => ⟨S1x256, .f32⟩
  | .hbm, ⟨59, _⟩ => ⟨S32x256, .f32⟩
  | .hbm, ⟨60, _⟩ => ⟨S32x256, .f32⟩
  | .hbm, ⟨61, _⟩ => ⟨S1x256, .f32⟩
  | .hbm, ⟨62, _⟩ => ⟨S32x256, .f32⟩
  | .hbm, ⟨63, _⟩ => ⟨S32x256, .f32⟩
  | .hbm, ⟨64, _⟩ => ⟨S32x256, .f32⟩
  | .hbm, ⟨65, _⟩ => ⟨S32x256x1x1, .f32⟩
  | .hbm, ⟨66, _⟩ => ⟨S32x256x1x1, .f32⟩
  | .hbm, ⟨67, _⟩ => ⟨S32x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S2x256x1, .f32⟩
  | .local _ .vmem, ⟨3, _⟩ => ⟨S2x256x1, .f32⟩
  | .local _ .vmem, ⟨4, _⟩ => ⟨S2x256x1, .f32⟩
  | .local _ .vmem, ⟨5, _⟩ => ⟨S2x256x1, .f32⟩
  | .local _ .vmem, ⟨6, _⟩ => ⟨S2x256x56x56, .f32⟩
  | .local _ .vmem, ⟨7, _⟩ => ⟨S2x256x56x56, .f32⟩
  | .local _ .vmem, ⟨8, _⟩ => ⟨S2x256x1x1, .f32⟩
  | .local _ .vmem, ⟨9, _⟩ => ⟨S2x256x1x1, .f32⟩
  | .local _ .vmem, ⟨10, _⟩ => ⟨S2x256x1x1, .f32⟩
  | .local _ .vmem, ⟨11, _⟩ => ⟨S2x256x1x1, .f32⟩
  | .local _ .vmem, ⟨12, _⟩ => ⟨S2x256x56x56, .f32⟩
  | .local _ .vmem, ⟨13, _⟩ => ⟨S2x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x256x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x256x56x56 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2x256x56x56_S2x256x56x56_0_0_0_0 : ∀ a, (![0, 0, 0, 0] : Fin 4 → Nat) a + S2x256x56x56.size a ≤ S2x256x56x56.size a
  h_S2x256x56x56 : 0 < S2x256x56x56.numel
  reduces_S2x256x56x56_S2x256x56 : S2x256x56x56.Reduces [3] S2x256x56
  reduces_S2x256x56_S2x256 : S2x256x56.Reduces [2] S2x256
  shapeCasts_S2x256_S2x256x1 : S2x256.ShapeCasts S2x256x1
  inb_S2x256x1_S2x256x1_0_0_0 : ∀ a, (![0, 0, 0] : Fin 3 → Nat) a + S2x256x1.size a ≤ S2x256x1.size a
  h_S2x256x1 : 0 < S2x256x1.numel
  shapeCasts_S32x256x1_S32x256 : S32x256x1.ShapeCasts S32x256
  bcast_S_S32x256 : S_.BroadcastsInDim S32x256 (![] : Fin 0 → Fin S32x256.rank)
  reducesTo_S32x256_S256_d0 : S32x256.ReducesTo [0] S256
  h_S_ : 0 < S_.numel
  bcast_S_S256 : S_.BroadcastsInDim S256 (![] : Fin 0 → Fin S256.rank)
  transposes_S25x256_S256x25_1_0 : S25x256.Transposes [1, 0] S256x25
  bcast_S_S32x25 : S_.BroadcastsInDim S32x25 (![] : Fin 0 → Fin S32x25.rank)
  transposes_S3x25_S25x3_1_0 : S3x25.Transposes [1, 0] S25x3
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x3_0_1 : S32x1.BroadcastsInDim S32x3 (![0, 1] : Fin 2 → Fin S32x3.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S32x256_S32x256x1x1 : S32x256.ShapeCasts S32x256x1x1
  inb_S2x256x1x1_S2x256x1x1_0_0_0_0 : ∀ a, (![0, 0, 0, 0] : Fin 4 → Nat) a + S2x256x1x1.size a ≤ S2x256x1x1.size a
  h_S2x256x1x1 : 0 < S2x256x1x1.numel
  shapeCasts_S2x256x1x1_S2x256x1x1 : S2x256x1x1.ShapeCasts S2x256x1x1
  broadcasts_S2x256x1x1_S2x256x56x56 : S2x256x1x1.Broadcasts S2x256x56x56
  dot_S32x256_S256x25_S32x25_1_0_0_1_n_n_wf : DotDims.WF S32x256 S256x25 S32x25 [1] [0] [0] [1] [] []
  dot_S32x25_S25x3_S32x3_1_0_0_1_n_n_wf : DotDims.WF S32x25 S25x3 S32x3 [1] [0] [0] [1] [] []
  dot_S32x3_S3x256_S32x256_1_0_0_1_n_n_wf : DotDims.WF S32x3 S3x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S32x256x56x56.size a
  hwx0_0 : ∀ i : grid0.Coords, EltTy.bits .f32 = 32 ∨ (Rect.block (s := S32x256x56x56) S2x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1.size a ≤ S32x256x1.size a
  hwx0_1 : ∀ i : grid0.Coords, EltTy.bits .f32 = 32 ∨ (Rect.block (s := S32x256x1) S2x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S32x256x1.size a
  hwx0_2 : ∀ i : grid0.Coords, EltTy.bits .f32 = 32 ∨ (Rect.block (s := S32x256x1) S2x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x56x56.size a ≤ S32x256x56x56.size a
  hwx1_0 : ∀ i : grid1.Coords, EltTy.bits .f32 = 32 ∨ (Rect.block (s := S32x256x56x56) S2x256x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x256x1x1.size a ≤ S32x256x1x1.size a
  hwx1_1 : ∀ i : grid1.Coords, EltTy.bits .f32 = 32 ∨ (Rect.block (s := S32x256x1x1) S2x256x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x256x1x1.size a ≤ S32x256x1x1.size a
  hwx1_2 : ∀ i : grid1.Coords, EltTy.bits .f32 = 32 ∨ (Rect.block (s := S32x256x1x1) S2x256x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x256x56x56.size a ≤ S32x256x56x56.size a
  hwx1_3 : ∀ i : grid1.Coords, EltTy.bits .f32 = 32 ∨ (Rect.block (s := S32x256x56x56) S2x256x56x56.size (cc1_transform_3 i) (hinb1_3 i)).WholeWords (EltTy.packing .f32)

variable [Facts₀]

def dot_S32x256_S256x25_S32x25_1_0_0_1_n_n : DotDims S32x256 S256x25 S32x25 where
  lhsContracting := [1]
  rhsContracting := [0]
  lhsNonContracting := [0]
  rhsNonContracting := [1]
  lhsBatch := []
  rhsBatch := []
  wf := dot_S32x256_S256x25_S32x25_1_0_0_1_n_n_wf
def dot_S32x25_S25x3_S32x3_1_0_0_1_n_n : DotDims S32x25 S25x3 S32x3 where
  lhsContracting := [1]
  rhsContracting := [0]
  lhsNonContracting := [0]
  rhsNonContracting := [1]
  lhsBatch := []
  rhsBatch := []
  wf := dot_S32x25_S25x3_S32x3_1_0_0_1_n_n_wf
def dot_S32x3_S3x256_S32x256_1_0_0_1_n_n : DotDims S32x3 S3x256 S32x256 where
  lhsContracting := [1]
  rhsContracting := [0]
  lhsNonContracting := [0]
  rhsNonContracting := [1]
  lhsBatch := []
  rhsBatch := []
  wf := dot_S32x3_S3x256_S32x256_1_0_0_1_n_n_wf

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2x256x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2x256x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2x256x56x56.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S25x256 : Shape := ⟨2, ![25, 256]⟩
abbrev S3x25 : Shape := ⟨2, ![3, 25]⟩
abbrev S3x256 : Shape := ⟨2, ![3, 256]⟩
abbrev S_ : Shape := ⟨0, ![]⟩
abbrev S32x256 : Shape := ⟨2, ![32, 256]⟩
abbrev S256x25 : Shape := ⟨2, ![256, 25]⟩
abbrev S32x25 : Shape := ⟨2, ![32, 25]⟩
abbrev S25x3 : Shape := ⟨2, ![25, 3]⟩
abbrev S32x3 : Shape := ⟨2, ![32, 3]⟩
abbrev S32 : Shape := ⟨1, ![32]⟩
abbrev S32x1 : Shape := ⟨2, ![32, 1]⟩
abbrev S256 : Shape := ⟨1, ![256]⟩
abbrev S1x256x1x1 : Shape := ⟨4, ![1, 256, 1, 1]⟩
abbrev S32x256x1x1 : Shape := ⟨4, ![32, 256, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S25x256, .f32⟩
  | .hbm, ⟨2, _⟩ => ⟨S3x25, .f32⟩
  | .hbm, ⟨3, _⟩ => ⟨S3x256, .f32⟩
  | .hbm, ⟨4, _⟩ => ⟨S3x256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S256x25, .f32⟩
  | .hbm, ⟨11, _⟩ => ⟨S32x25, .f32⟩
  | .hbm, ⟨12, _⟩ => ⟨S_, .f32⟩
  | .hbm, ⟨13, _⟩ => ⟨S32x25, .f32⟩
  | .hbm, ⟨14, _⟩ => ⟨S32x25, .i1⟩
  | .hbm, ⟨15, _⟩ => ⟨S_, .f32⟩
  | .hbm, ⟨16, _⟩ => ⟨S32x25, .f32⟩
  | .hbm, ⟨17, _⟩ => ⟨S32x25, .f32⟩
  | .hbm, ⟨18, _⟩ => ⟨S32x25, .f32⟩
  | .hbm, ⟨19, _⟩ => ⟨S25x3, .f32⟩
  | .hbm, ⟨20, _⟩ => ⟨S32x3, .f32⟩
  | .hbm, ⟨21, _⟩ => ⟨S_, .f32⟩
  | .hbm, ⟨22, _⟩ => ⟨S32x3, .f32⟩
  | .hbm, ⟨23, _⟩ => ⟨S32x3, .f32⟩
  | .hbm, ⟨24, _⟩ => ⟨S_, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32x1, .f32⟩
  | .hbm, ⟨30, _⟩ => ⟨S32x3, .f32⟩
  | .hbm, ⟨31, _⟩ => ⟨S32x3, .f32⟩
  | .hbm, ⟨32, _⟩ => ⟨S32x3, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S32x3, .f32⟩
  | .hbm, ⟨37, _⟩ => ⟨S32x3, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S_, .i32⟩
  | .hbm, ⟨44, _⟩ => ⟨S_, .f32⟩
  | .hbm, ⟨45, _⟩ => ⟨S256, .f32⟩
  | .hbm, ⟨46, _⟩ => ⟨S1x256x1x1, .f32⟩
  | .hbm, ⟨47, _⟩ => ⟨S_, .f32⟩
  | .hbm, ⟨48, _⟩ => ⟨S1x256x1x1, .f32⟩
  | .hbm, ⟨49, _⟩ => ⟨S1x256x1x1, .f32⟩
  | .hbm, ⟨50, _⟩ => ⟨S32x256x56x56, .f32⟩
  | .hbm, ⟨51, _⟩ => ⟨S32x256x56x56, .f32⟩
  | .hbm, ⟨52, _⟩ => ⟨S32x256x56x56, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256x1x1, .f32⟩
  | .hbm, ⟨67, _⟩ => ⟨S32x256x56x56, .f32⟩
  | .hbm, ⟨68, _⟩ => ⟨S32x256x56x56, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256x1x1, .f32⟩
  | .hbm, ⟨74, _⟩ => ⟨S32x256x56x56, .f32⟩
  | .hbm, ⟨75, _⟩ => ⟨S32x256x56x56, .f32⟩
  | .hbm, ⟨76, _⟩ => ⟨S32x256, .f32⟩
  | .hbm, ⟨77, _⟩ => ⟨S32x256, .f32⟩
  | .hbm, ⟨78, _⟩ => ⟨S32x256x1x1, .f32⟩
  | .hbm, ⟨79, _⟩ => ⟨S32x256x56x56, .f32⟩
  | .hbm, ⟨80, _⟩ => ⟨S32x256x56x56, .f32⟩
  | .hbm, ⟨81, _⟩ => ⟨S32x256x1x1, .f32⟩
  | .hbm, ⟨82, _⟩ => ⟨S32x256x56x56, .f32⟩
  | .hbm, ⟨83, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_9 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  reducesTo_S32x256x56x56_S32x256_d2_3 : S32x256x56x56.ReducesTo [2, 3] S32x256
  h_S_ : 0 < S_.numel
  bcast_S_S32x256 : S_.BroadcastsInDim S32x256 (![] : Fin 0 → Fin S32x256.rank)
  transposes_S25x256_S256x25_1_0 : S25x256.Transposes [1, 0] S256x25
  bcast_S_S32x25 : S_.BroadcastsInDim S32x25 (![] : Fin 0 → Fin S32x25.rank)
  transposes_S3x25_S25x3_1_0 : S3x25.Transposes [1, 0] S25x3
  bcast_S_S32x3 : S_.BroadcastsInDim S32x3 (![] : Fin 0 → Fin S32x3.rank)
  reducesTo_S32x3_S32_d1 : S32x3.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x3_0_1 : S32x1.BroadcastsInDim S32x3 (![0, 1] : Fin 2 → Fin S32x3.rank)
  reducesTo_S32x256x56x56_S256_d0_2_3 : S32x256x56x56.ReducesTo [0, 2, 3] S256
  bcast_S_S256 : S_.BroadcastsInDim S256 (![] : Fin 0 → Fin S256.rank)
  bcast_S256_S1x256x1x1_1 : S256.BroadcastsInDim S1x256x1x1 (![1] : Fin 1 → Fin S1x256x1x1.rank)
  bcast_S_S1x256x1x1 : S_.BroadcastsInDim S1x256x1x1 (![] : Fin 0 → Fin S1x256x1x1.rank)
  bcast_S1x256x1x1_S32x256x56x56_0_1_2_3 : S1x256x1x1.BroadcastsInDim S32x256x56x56 (![0, 1, 2, 3] : Fin 4 → Fin S32x256x56x56.rank)
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  dot_S32x256_S256x25_S32x25_1_0_0_1_n_n_wf : DotDims.WF S32x256 S256x25 S32x25 [1] [0] [0] [1] [] []
  dot_S32x25_S25x3_S32x3_1_0_0_1_n_n_wf : DotDims.WF S32x25 S25x3 S32x3 [1] [0] [0] [1] [] []
  dot_S32x3_S3x256_S32x256_1_0_0_1_n_n_wf : DotDims.WF S32x3 S3x256 S32x256 [1] [0] [0] [1] [] []

variable [Facts₀]

def dot_S32x256_S256x25_S32x25_1_0_0_1_n_n : DotDims S32x256 S256x25 S32x25 where
  lhsContracting := [1]
  rhsContracting := [0]
  lhsNonContracting := [0]
  rhsNonContracting := [1]
  lhsBatch := []
  rhsBatch := []
  wf := dot_S32x256_S256x25_S32x25_1_0_0_1_n_n_wf
def dot_S32x25_S25x3_S32x3_1_0_0_1_n_n : DotDims S32x25 S25x3 S32x3 where
  lhsContracting := [1]
  rhsContracting := [0]
  lhsNonContracting := [0]
  rhsNonContracting := [1]
  lhsBatch := []
  rhsBatch := []
  wf := dot_S32x25_S25x3_S32x3_1_0_0_1_n_n_wf
def dot_S32x3_S3x256_S32x256_1_0_0_1_n_n : DotDims S32x3 S3x256 S32x256 where
  lhsContracting := [1]
  rhsContracting := [0]
  lhsNonContracting := [0]
  rhsNonContracting := [1]
  lhsBatch := []
  rhsBatch := []
  wf := dot_S32x3_S3x256_S32x256_1_0_0_1_n_n_wf

class Facts : Prop extends Facts₀ where

variable [Facts]
-- ==== Proof.KNames.lean ====
/-
  Names, at their literal array types, for the buffer contents the kernel program's run passes through: the argument
  arrays at launch, the two result arrays of the statistics region, the three arrays the affine region reads and the
  one it writes, and the gates array.  Each is an extended-real-valued function of the array's index.
-/
import proofs.«121786_j24163486007874_1_alg».proof.Proof.Gen.KernelIdeal.Frame
import Idealize.ShloMosaic.Lib.ValueIdx

noncomputable section

namespace Cert.KNames

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The activations `x` as launched. -/
abbrev xArr (c : Dev nD) : S32x256x56x56.Idx → EReal := m ((c.tc : Thread nD τ).loc main_arg0)
/-- `fc1_w` as launched. -/
abbrev w1Arr (c : Dev nD) : S25x256.Idx → EReal := m ((c.tc : Thread nD τ).loc main_arg1)
/-- `fc2_w` as launched. -/
abbrev w2Arr (c : Dev nD) : S3x25.Idx → EReal := m ((c.tc : Thread nD τ).loc main_arg2)
/-- `gamma` as launched. -/
abbrev gArr (c : Dev nD) : S3x256.Idx → EReal := m ((c.tc : Thread nD τ).loc main_arg3)
/-- `beta` as launched. -/
abbrev bArr (c : Dev nD) : S3x256.Idx → EReal := m ((c.tc : Thread nD τ).loc main_arg4)

/-- The statistics region's first result array (the sums), after the region. -/
abbrev s1Arr (c : Dev nD) : S32x256x1.Idx → EReal := W1 m ρ c (Proc.devRef .tc main_v0_0)
/-- The statistics region's second result array (the sums of squares), after the region. -/
abbrev s2Arr (c : Dev nD) : S32x256x1.Idx → EReal := W1 m ρ c (Proc.devRef .tc main_v0_1)

/-- The activations as the affine region finds them. -/
abbrev x4Arr (c : Dev nD) : S32x256x56x56.Idx → EReal := W4 m ρ c (Proc.devRef .tc main_arg0)
/-- The multiplier array as the affine region finds it. -/
abbrev a4Arr (c : Dev nD) : S32x256x1x1.Idx → EReal := W4 m ρ c (Proc.devRef .tc main_v47)
/-- The offset array as the affine region finds it. -/
abbrev d4Arr (c : Dev nD) : S32x256x1x1.Idx → EReal := W4 m ρ c (Proc.devRef .tc main_v48)
/-- The result array after the affine region. -/
abbrev outArr (c : Dev nD) : S32x256x56x56.Idx → EReal := W5 m ρ c (Proc.devRef .tc main_v49)
/-- The gates array at the end of the run. -/
abbrev gatesArr (c : Dev nD) : S32x3.Idx → EReal := W5 m ρ c (Proc.devRef .tc main_v34)

end Cert.KNames

end
-- ==== Proof.KStats.lean ====
/-
  Region 0 (the statistics kernel) read as values: after the region, entry (b, c, 0) of its first result array is the
  sum of the activations over the 56 × 56 positions of (b, c), and of its second the sum of their squares.  Grid point t
  writes batch rows 2t and 2t + 1, so the sixteen blocks tile the arrays.
-/
import proofs.«121786_j24163486007874_1_alg».proof.Proof.KNames
import Idealize.ShloMosaic.Lib.ValueIdx
import Idealize.ShloMosaic.Lib.Pipeline.Value
import Idealize.ShloMosaic.PureOps.Ideal.Laws

noncomputable section

namespace Cert.KStats

open Idealize.ShloMosaic Idealize.ShloMosaic.TcCoe Idealize.SL.Sem Idealize.ShloMosaic.ValueIdx
open Cert.KernelIdeal Cert.KernelIdeal.Gen Cert.KNames

variable (m : (ℓ : Loc nD τ sig) → Buf (Elt Ideal) ℓ) (ρ : Dev nD → PrngReg)

/-! ## The body's two results at an index

Both are a [2, 256, 56, 56] vector summed over its last axis, the result summed over its last axis again, and a unit
axis appended: at (p, q, 0) that is the double sum over the two summed coordinates. -/

private theorem sum_sum_cast_apply (v : FVec Ideal S2x256x56x56 .f32)
    (h3 : S2x256x56x56.Reduces [3] S2x256x56) (h2 : S2x256x56.Reduces [2] S2x256) (hc : S2x256.ShapeCasts S2x256x1)
    (hφ : FKind.Formats .f32) (hacc : (0x00000000#32 : BitVec 32) = FKind.add.neutral .f32 hφ)
    (p : Fin 2) (q : Fin 256) (r : Fin 1) :
    shapeCast S2x256x1 (multiReduction (F := Ideal) .add [2] S2x256
        (multiReduction (F := Ideal) .add [3] S2x256x56 v 0x00000000#32 h3 hφ hacc) 0x00000000#32 h2 hφ hacc) hc (ix3 p q r)
      = ∑ h : Fin 56, ∑ w : Fin 56, v (ix4 p q h w) := by
  -- the cast keeps the row-major position: (p, q, 0) of [2, 256, 1] is (p, q) of [2, 256]
  refine (shapeCast_apply _ hc (ix3 p q r) (ix2 p q) ?_).trans ?_
  · rw [Shape.rowMajor_val_two, Shape.rowMajor_val_three]
    have hr : r.val = 0 := by omega
    show p.val * 256 + q.val = (p.val * 256 + q.val) * 1 + r.val
    omega
  -- the outer sum runs over the third coordinate, the inner one over the fourth
  refine (Ideal.multiReduction_add_single _ 0x00000000#32 h2 hφ hacc (ix2 p q)).trans ?_
  refine Finset.sum_congr rfl fun h _ => ?_
  refine (Ideal.multiReduction_add_single v 0x00000000#32 h3 hφ hacc (h2.lift (ix2 p q) h)).trans ?_
  refine Finset.sum_congr rfl fun w _ => congrArg v ?_
  funext a; apply Fin.ext
  match a with
  | ⟨0, _⟩ => rfl
  | ⟨1, _⟩ => rfl
  | ⟨2, _⟩ => rfl
  | ⟨3, _⟩ => rfl

/-- The first stored value at (p, q, 0): the block summed over the 56 × 56 positions of (p, q). -/
private theorem pay1_apply (x0 : Vec Ideal S2x256x56x56 .f32) (p : Fin 2) (q : Fin 256) (r : Fin 1) :
    k0_pay1 (F := Ideal) x0 (ix3 p q r) = ∑ h : Fin 56, ∑ w : Fin 56, x0 (ix4 p q h w) := by
  unfold k0_pay1
  exact sum_sum_cast_apply x0 _ _ _ _ _ p q r

/-- The second stored value at (p, q, 0): the block's squares summed over the 56 × 56 positions of (p, q). -/
private theorem pay2_apply (x0 : Vec Ideal S2x256x56x56 .f32) (p : Fin 2) (q : Fin 256) (r : Fin 1) :
    k0_pay2 (F := Ideal) x0 (ix3 p q r) = ∑ h : Fin 56, ∑ w : Fin 56, x0 (ix4 p q h w) * x0 (ix4 p q h w) := by
  unfold k0_pay2
  exact sum_sum_cast_apply (mulf x0 x0) _ _ _ _ _ p q r

/-! ## The specification: the array of plane sums -/

/-- The sum of `f (X[b, ch, h, w])` over the 56 × 56 positions of (b, ch). -/
private def planeSum (f : EReal → EReal) (X : S32x256x56x56.Idx → EReal) (b : Fin 32) (ch : Fin 256) : EReal :=
  ∑ h : Fin 56, ∑ w : Fin 56, f (X (ix4 b ch h w))

/-- The [32, 256, 1] array of those sums. -/
private def planeSums (f : EReal → EReal) (X : S32x256x56x56.Idx → EReal) : S32x256x1.Idx → EReal :=
  fun i => planeSum f X (i 0) (i 1)

/-! ## A block's results are the block's rows of the array of plane sums -/

private theorem zeros3 : (![0, 0, 0] : Fin 3 → Nat) = fun _ => 0 := funext fun a => by fin_cases a <;> rfl
private theorem zeros4 : (![0, 0, 0, 0] : Fin 4 → Nat) = fun _ => 0 := funext fun a => by fin_cases a <;> rfl

/-- If the block `x0` is batch rows 2T and 2T + 1 of `X`, its first result at `j` is the plane sum of `X` at the index
    `i` that is `j` moved 2T rows down. -/
private theorem block_sum (X : S32x256x56x56.Idx → EReal) (x0 : Vec Ideal S2x256x56x56 .f32) (T : Nat)
    (hx : ∀ (p : Fin 2) (q : Fin 256) (h w : Fin 56) (b : Fin 32), b.val = 2 * T + p.val → x0 (ix4 p q h w) = X (ix4 b q h w))
    (j : S2x256x1.Idx) (i : S32x256x1.Idx) (h0 : (i 0).val = 2 * T + (j 0).val) (h1 : (i 1).val = (j 1).val) :
    k0_pay1 (F := Ideal) x0 j = planeSums (fun v => v) X i := by
  obtain ⟨p, q, r, rfl⟩ : ∃ (p : Fin 2) (q : Fin 256) (r : Fin 1), j = ix3 p q r := ⟨j 0, j 1, j 2, eq_ix3 j⟩
  obtain ⟨b, ch, z, rfl⟩ : ∃ (b : Fin 32) (ch : Fin 256) (z : Fin 1), i = ix3 b ch z := ⟨i 0, i 1, i 2, eq_ix3 i⟩
  have hb : b.val = 2 * T + p.val := h0
  obtain rfl : ch = q := Fin.ext h1
  rw [pay1_apply]
  show _ = ∑ h : Fin 56, ∑ w : Fin 56, X (ix4 b ch h w)
  exact Finset.sum_congr rfl fun h _ => Finset.sum_congr rfl fun w _ => hx p ch h w b hb

/-- Likewise its second result is the plane sum of the squares. -/
private theorem block_sumsq (X : S32x256x56x56.Idx → EReal) (x0 : Vec Ideal S2x256x56x56 .f32) (T : Nat)
    (hx : ∀ (p : Fin 2) (q : Fin 256) (h w : Fin 56) (b : Fin 32), b.val = 2 * T + p.val → x0 (ix4 p q h w) = X (ix4 b q h w))
    (j : S2x256x1.Idx) (i : S32x256x1.Idx) (h0 : (i 0).val = 2 * T + (j 0).val) (h1 : (i 1).val = (j 1).val) :
    k0_pay2 (F := Ideal) x0 j = planeSums (fun v => v * v) X i := by
  obtain ⟨p, q, r, rfl⟩ : ∃ (p : Fin 2) (q : Fin 256) (r : Fin 1), j = ix3 p q r := ⟨j 0, j 1, j 2, eq_ix3 j⟩
  obtain ⟨b, ch, z, rfl⟩ : ∃ (b : Fin 32) (ch : Fin 256) (z : Fin 1), i = ix3 b ch z := ⟨i 0, i 1, i 2, eq_ix3 i⟩
  have hb : b.val = 2 * T + p.val := h0
  obtain rfl : ch = q := Fin.ext h1
  rw [pay2_apply]
  show _ = ∑ h : Fin 56, ∑ w : Fin 56, X (ix4 b ch h w) * X (ix4 b ch h w)
  exact Finset.sum_congr rfl fun h _ => Finset.sum_congr rfl fun w _ => by rw [hx p ch h w b hb]

/-! ## The grid: point t's blocks -/

/-- The windows' index maps over the sixteen points: every window's block index is (t, 0, …). -/
private theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Point t's block of the activations is batch rows 2t and 2t + 1 of the launched array. -/
private theorem xblk_apply (c : Dev nD) (t : Fin cfg0.N) (p : Fin 2) (q : Fin 256) (h w : Fin 56) (b : Fin 32)
    (hb : b.val = 2 * t.val + p.val) :
    (iblk0 (V0 m ρ) c 0 t : Vec Ideal S2x256x56x56 .f32) (ix4 p q h w) = xArr m c (ix4 b q h w) := by
  obtain ⟨e0, e1, e2, e3, -⟩ := idx_facts t
  unfold iblk0
  rw [View.read_apply]
  show m ((c.tc : Thread nD τ).loc main_arg0) _ = m ((c.tc : Thread nD τ).loc main_arg0) _
  congr 1
  funext a; apply Fin.ext
  match a with
  | ⟨0, _⟩ => show win0_0.index t (0 : Fin 4) * 2 + 1 * p.val = b.val; omega
  | ⟨1, _⟩ => show win0_0.index t (1 : Fin 4) * 256 + 1 * q.val = q.val; omega
  | ⟨2, _⟩ => show win0_0.index t (2 : Fin 4) * 56 + 1 * h.val = h.val; omega
  | ⟨3, _⟩ => show win0_0.index t (3 : Fin 4) * 56 + 1 * w.val = w.val; omega

/-! ## What point t writes back, and the arrays after the region -/

/-- Point t writes back, into the first result array, its block of the array of plane sums. -/
private theorem flushed1_eq (c : Dev nD) (t : Fin cfg0.N) :
    (dat0 (V0 m ρ) c).flushed 1 t = ((cfg0.win 1).blk t).view.read (Elt Ideal) (planeSums (fun v => v) (xArr m c)) := by
  show (cfg0.win 1).cut (grid0.coords t) ((dat0 (V0 m ρ) c).after 1 t) = _
  rw [after0_1]
  unfold out0_1
  rw [View.canon_unit_zero zeros3]
  simp only [View.ld_unit_zero (S := S2x256x56x56) zeros4]
  obtain ⟨-, -, -, -, e0, e1, e2, -⟩ := idx_facts t
  funext j
  refine block_sum (xArr m c) (iblk0 (V0 m ρ) c 0 t) t.val (fun p q h w b hb => xblk_apply m ρ c t p q h w b hb)
    ((cfg0.win 1).xinj (grid0.coords t) j) (((cfg0.win 1).blk t).view.emb j) ?_ ?_
  · show win0_1.index t (0 : Fin 3) * 2 + 1 * (j 0).val = 2 * t.val + (j 0).val; omega
  · show win0_1.index t (1 : Fin 3) * 256 + 1 * (j 1).val = (j 1).val; omega

/-- Point t writes back, into the second result array, its block of the array of plane sums of squares. -/
private theorem flushed2_eq (c : Dev nD) (t : Fin cfg0.N) :
    (dat0 (V0 m ρ) c).flushed 2 t = ((cfg0.win 2).blk t).view.read (Elt Ideal) (planeSums (fun v => v * v) (xArr m c)) := by
  show (cfg0.win 2).cut (grid0.coords t) ((dat0 (V0 m ρ) c).after 2 t) = _
  rw [after0_2]
  unfold out0_2
  rw [View.canon_unit_zero zeros3]
  simp only [View.ld_unit_zero (S := S2x256x56x56) zeros4]
  obtain ⟨-, -, -, -, -, -, -, e0, e1, e2⟩ := idx_facts t
  funext j
  refine block_sumsq (xArr m c) (iblk0 (V0 m ρ) c 0 t) t.val (fun p q h w b hb => xblk_apply m ρ c t p q h w b hb)
    ((cfg0.win 2).xinj (grid0.coords t) j) (((cfg0.win 2).blk t).view.emb j) ?_ ?_
  · show win0_2.index t (0 : Fin 3) * 2 + 1 * (j 0).val = 2 * t.val + (j 0).val; omega
  · show win0_2.index t (1 : Fin 3) * 256 + 1 * (j 1).val = (j 1).val; omega

/-- An index of the first result array is in point t's block iff each coordinate is in the block's range. -/
private theorem mem_blk1 (t : Fin cfg0.N) (i : S32x256x1.Idx) :
    i ∈ ((cfg0.win 1).blk t).view.set ↔ ∀ a : Fin 3, win0_1.index t a * S2x256x1.size a ≤ (i a).val ∧ (i a).val < win0_1.index t a * S2x256x1.size a + S2x256x1.size a := by
  show i ∈ ((View.whole main_v0_0).slice (win0_1.rect t)).set ↔ _
  rw [View.set_slice_whole, Rect.mem_set_unit]
  exact Iff.rfl

/-- The same for the second result array. -/
private theorem mem_blk2 (t : Fin cfg0.N) (i : S32x256x1.Idx) :
    i ∈ ((cfg0.win 2).blk t).view.set ↔ ∀ a : Fin 3, win0_2.index t a * S2x256x1.size a ≤ (i a).val ∧ (i a).val < win0_2.index t a * S2x256x1.size a + S2x256x1.size a := by
  show i ∈ ((View.whole main_v0_1).slice (win0_2.rect t)).set ↔ _
  rw [View.set_slice_whole, Rect.mem_set_unit]
  exact Iff.rfl

/-- Batch row b of the first result array is written by point b / 2. -/
private theorem cover1 (i : S32x256x1.Idx) :
    ∃ t : Fin cfg0.N, (cfg0.win 1).flush t = true ∧ i ∈ ((cfg0.win 1).blk t).view.set := by
  have hi0 : (i 0).val < 32 := (i 0).isLt
  have hi1 : (i 1).val < 256 := (i 1).isLt
  have hi2 : (i 2).val < 1 := (i 2).isLt
  refine ⟨⟨(i 0).val / 2, by show (i 0).val / 2 < 16; omega⟩, flush0_1 _, ?_⟩
  rw [mem_blk1]
  obtain ⟨-, -, -, -, e0, e1, e2, -⟩ := idx_facts ⟨(i 0).val / 2, by show (i 0).val / 2 < 16; omega⟩
  have e0' : win0_1.index ⟨(i 0).val / 2, by show (i 0).val / 2 < 16; omega⟩ (0 : Fin 3) = (i 0).val / 2 := e0
  intro a
  match a with
  | ⟨0, _⟩ => show win0_1.index _ (0 : Fin 3) * 2 ≤ (i 0).val ∧ (i 0).val < win0_1.index _ (0 : Fin 3) * 2 + 2; omega
  | ⟨1, _⟩ => show win0_1.index _ (1 : Fin 3) * 256 ≤ (i 1).val ∧ (i 1).val < win0_1.index _ (1 : Fin 3) * 256 + 256; omega
  | ⟨2, _⟩ => show win0_1.index _ (2 : Fin 3) * 1 ≤ (i 2).val ∧ (i 2).val < win0_1.index _ (2 : Fin 3) * 1 + 1; omega

/-- Batch row b of the second result array is written by point b / 2. -/
private theorem cover2 (i : S32x256x1.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  refine ⟨⟨(i 0).val / 2, by show (i 0).val / 2 < 16; omega⟩, flush0_2 _, ?_⟩
  rw [mem_blk2]
  obtain ⟨-, -, -, -, -, -, -, e0, e1, e2⟩ := idx_facts ⟨(i 0).val / 2, by show (i 0).val / 2 < 16; omega⟩
  have e0' : win0_2.index ⟨(i 0).val / 2, by show (i 0).val / 2 < 16; omega⟩ (0 : Fin 3) = (i 0).val / 2 := e0
  intro a
  match a with
  | ⟨0, _⟩ => show win0_2.index _ (0 : Fin 3) * 2 ≤ (i 0).val ∧ (i 0).val < win0_2.index _ (0 : Fin 3) * 2 + 2; omega
  | ⟨1, _⟩ => show win0_2.index _ (1 : Fin 3) * 256 ≤ (i 1).val ∧ (i 1).val < win0_2.index _ (1 : Fin 3) * 256 + 256; omega
  | ⟨2, _⟩ => show win0_2.index _ (2 : Fin 3) * 1 ≤ (i 2).val ∧ (i 2).val < win0_2.index _ (2 : Fin 3) * 1 + 1; omega

/-- After the region the first result array is the array of plane sums of the launched activations … -/
private theorem s1Arr_eq (c : Dev nD) : s1Arr m ρ c = planeSums (fun v => v) (xArr m c) :=
  (W1_arr m ρ c 1).trans
    ((dat0 (V0 m ρ) c).arrAt_eq_of_cover 1 (planeSums (fun v => v) (xArr m c)) (fun t _ => flushed1_eq m ρ c t) cover1)

/-- … and the second the array of plane sums of their squares. -/
private theorem s2Arr_eq (c : Dev nD) : s2Arr m ρ c = planeSums (fun v => v * v) (xArr m c) :=
  (W1_arr m ρ c 2).trans
    ((dat0 (V0 m ρ) c).arrAt_eq_of_cover 2 (planeSums (fun v => v * v) (xArr m c)) (fun t _ => flushed2_eq m ρ c t) cover2)

/-- After region 0, the first result array at (b, ch, 0) is `Σ_h Σ_w x[b, ch, h, w]`. -/
theorem stats_sum (c : Dev nD) (b : Fin 32) (ch : Fin 256) :
    s1Arr m ρ c (ix3 b ch (0 : Fin 1)) = ∑ h : Fin 56, ∑ w : Fin 56, xArr m c (ix4 b ch h w) := by
  rw [s1Arr_eq]
  rfl

/-- After region 0, the second result array at (b, ch, 0) is `Σ_h Σ_w x[b, ch, h, w]²`. -/
theorem stats_sumsq (c : Dev nD) (b : Fin 32) (ch : Fin 256) :
    s2Arr m ρ c (ix3 b ch (0 : Fin 1)) = ∑ h : Fin 56, ∑ w : Fin 56, xArr m c (ix4 b ch h w) * xArr m c (ix4 b ch h w) := by
  rw [s2Arr_eq]
  rfl

end Cert.KStats

end
-- ==== Proof.KAffine.lean ====
/-
  Region 1 (the affine kernel) read as values: after the region, entry (b, c, h, w) of its result array is the
  activation there times the multiplier at (b, c, 0, 0) plus the offset at (b, c, 0, 0), all three read where the region
  found them.  Grid point t writes batch rows 2t and 2t + 1, so the sixteen blocks tile the array.
-/
import proofs.«121786_j24163486007874_1_alg».proof.Proof.KNames
import Idealize.ShloMosaic.Lib.ValueIdx
import Idealize.ShloMosaic.Lib.Pipeline.Value

noncomputable section

namespace Cert.KAffine

open Idealize.ShloMosaic Idealize.ShloMosaic.TcCoe Idealize.SL.Sem Idealize.ShloMosaic.ValueIdx
open Cert.KernelIdeal Cert.KernelIdeal.Gen Cert.KNames

variable (m : (ℓ : Loc nD τ sig) → Buf (Elt Ideal) ℓ) (ρ : Dev nD → PrngReg)

/-! ## The affine map, index by index -/

/-- The four zero offsets of a whole-block access, as the constant function. -/
private theorem zero4 : (![0, 0, 0, 0] : Fin 4 → Nat) = fun _ => 0 := funext fun a => by fin_cases a <;> rfl

/-- The region's result as ONE function of its three input arrays: at (b, c, h, w) the activation there times the
    multiplier at (b, c, 0, 0) plus the offset at (b, c, 0, 0). -/
private abbrev affine (X : S32x256x56x56.Idx → EReal) (A D : S32x256x1x1.Idx → EReal) : S32x256x56x56.Idx → EReal :=
  fun i => X i * A (ix4 (n0 := 32) (n1 := 256) (i 0) (i 1) (0 : Fin 1) (0 : Fin 1))
    + D (ix4 (n0 := 32) (n1 := 256) (i 0) (i 1) (0 : Fin 1) (0 : Fin 1))

/-- `affine` at explicit coordinates. -/
private theorem affine_ix4 (X : S32x256x56x56.Idx → EReal) (A D : S32x256x1x1.Idx → EReal)
    (b : Fin 32) (ch : Fin 256) (h w : Fin 56) :
    affine X A D (ix4 b ch h w)
      = X (ix4 b ch h w) * A (ix4 b ch (0 : Fin 1) (0 : Fin 1)) + D (ix4 b ch (0 : Fin 1) (0 : Fin 1)) := rfl

/-! ## The body's payload at an index of the block -/

/-- A [2,256,1,1] block broadcast over the two trailing axes reads, at (p, q, h, w), its entry (p, q, 0, 0): the two
    leading extents are kept (neither is 1), the two trailing unit axes read coordinate 0. -/
private theorem bcast_apply (v : Vec Ideal S2x256x1x1 .f32) (hb : S2x256x1x1.Broadcasts S2x256x56x56)
    (p : Fin 2) (q : Fin 256) (h w : Fin 56) :
    broadcastTo S2x256x56x56 v hb (ix4 p q h w) = v (ix4 p q (0 : Fin 1) (0 : Fin 1)) :=
  broadcastTo_apply v hb (ix4 p q h w) (ix4 p q (0 : Fin 1) (0 : Fin 1)) fun a => by
    match a with
    | ⟨0, _⟩ => rfl
    | ⟨1, _⟩ => rfl
    | ⟨2, _⟩ => rfl
    | ⟨3, _⟩ => rfl

/-- The stored value at (p, q, h, w) of the block: the two shape casts are the identity, the two broadcasts read
    (p, q, 0, 0), and the product and the sum are taken entry by entry. -/
private theorem pay_apply (x0 : Vec Ideal S2x256x56x56 .f32) (x1 x2 : Vec Ideal S2x256x1x1 .f32)
    (p : Fin 2) (q : Fin 256) (h w : Fin 56) :
    k1_pay1 x0 x1 x2 (ix4 p q h w)
      = x0 (ix4 p q h w) * x1 (ix4 p q (0 : Fin 1) (0 : Fin 1)) + x2 (ix4 p q (0 : Fin 1) (0 : Fin 1)) := by
  unfold k1_pay1
  simp only [shapeCast_self]
  rw [addf_apply, mulf_apply, bcast_apply, bcast_apply]

/-! ## Where the four windows' blocks lie -/

/-- The printed index maps over the sixteen grid points: every window's block index at point `t` is (t, 0, 0, 0). -/
private theorem idx_facts : ∀ t : Fin cfg1.N,
    win1_3.index t (0 : Fin 4) = t.val ∧ win1_3.index t (1 : Fin 4) = 0
    ∧ win1_3.index t (2 : Fin 4) = 0 ∧ win1_3.index t (3 : Fin 4) = 0
    ∧ win1_0.index t (0 : Fin 4) = t.val ∧ win1_0.index t (1 : Fin 4) = 0
    ∧ win1_0.index t (2 : Fin 4) = 0 ∧ win1_0.index t (3 : Fin 4) = 0
    ∧ win1_1.index t (0 : Fin 4) = t.val ∧ win1_1.index t (1 : Fin 4) = 0
    ∧ win1_1.index t (2 : Fin 4) = 0 ∧ win1_1.index t (3 : Fin 4) = 0
    ∧ win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

/-- Every pair of batch rows is some point's block. -/
private theorem idx_onto : ∀ q0 : Fin 16, ∃ t : Fin cfg1.N, win1_3.index t = ![q0.val, 0, 0, 0] :=
  (by decide +kernel : ∀ q0 : Fin 16, ∃ t : Fin grid1.N, win1_3.index t = ![q0.val, 0, 0, 0])

section Blocks

variable (V : (c : Dev nD) → (b : Ref sig .tc) → Buf (Elt Ideal) ((c : Thread nD τ).loc b))

/-- The activation block at point `t` lies exactly under the result's block: same block index, same block size. -/
private theorem xblk_apply (c : Dev nD) (t : Fin cfg1.N) (p : Fin 2) (q : Fin 256) (h w : Fin 56) :
    (iblk1 V c 0 t : Vec Ideal S2x256x56x56 .f32) (ix4 p q h w)
      = (V c main_arg0 : S32x256x56x56.Idx → EReal) (((cfg1.win 3).blk t).view.emb (ix4 p q h w)) := by
  obtain ⟨e0, e1, e2, e3, f0, f1, f2, f3, -⟩ := idx_facts t
  unfold iblk1
  rw [View.read_apply]
  show (V c main_arg0 : S32x256x56x56.Idx → EReal) (((cfg1.win 0).blk t).view.emb (ix4 p q h w)) = _
  refine congrArg (V c main_arg0 : S32x256x56x56.Idx → EReal) (funext fun a => Fin.ext ?_)
  match a with
  | ⟨0, _⟩ => show win1_0.index t (0 : Fin 4) * 2 + 1 * p.val = win1_3.index t (0 : Fin 4) * 2 + 1 * p.val; omega
  | ⟨1, _⟩ => show win1_0.index t (1 : Fin 4) * 256 + 1 * q.val = win1_3.index t (1 : Fin 4) * 256 + 1 * q.val; omega
  | ⟨2, _⟩ => show win1_0.index t (2 : Fin 4) * 56 + 1 * h.val = win1_3.index t (2 : Fin 4) * 56 + 1 * h.val; omega
  | ⟨3, _⟩ => show win1_0.index t (3 : Fin 4) * 56 + 1 * w.val = win1_3.index t (3 : Fin 4) * 56 + 1 * w.val; omega

end Blocks

section Region

variable (V : (c : Dev nD) → (b : Ref sig .tc) → Buf (Elt Ideal) ((c : Thread nD τ).loc b))

/-- The multiplier block at point `t`, read at (p, q, 0, 0), is the multiplier array at the batch row and channel of
    the result's block entry (p, q, h, w): batch row 2t + p, channel q, and the two unit axes at 0. -/
private theorem ablk_apply (c : Dev nD) (t : Fin cfg1.N) (p : Fin 2) (q : Fin 256) (h w : Fin 56) :
    (iblk1 V c 1 t : Vec Ideal S2x256x1x1 .f32) (ix4 p q (0 : Fin 1) (0 : Fin 1))
      = (V c main_v47 : S32x256x1x1.Idx → EReal)
          (ix4 (n0 := 32) (n1 := 256) ((((cfg1.win 3).blk t).view.emb (ix4 p q h w) : S32x256x56x56.Idx) 0)
            ((((cfg1.win 3).blk t).view.emb (ix4 p q h w) : S32x256x56x56.Idx) 1) (0 : Fin 1) (0 : Fin 1)) := by
  obtain ⟨e0, e1, e2, e3, -, -, -, -, f0, f1, f2, f3, -⟩ := idx_facts t
  unfold iblk1
  rw [View.read_apply]
  show (V c main_v47 : S32x256x1x1.Idx → EReal) (((cfg1.win 1).blk t).view.emb (ix4 p q (0 : Fin 1) (0 : Fin 1))) = _
  refine congrArg (V c main_v47 : S32x256x1x1.Idx → EReal) (funext fun a => Fin.ext ?_)
  match a with
  | ⟨0, _⟩ => show win1_1.index t (0 : Fin 4) * 2 + 1 * p.val = win1_3.index t (0 : Fin 4) * 2 + 1 * p.val; omega
  | ⟨1, _⟩ => show win1_1.index t (1 : Fin 4) * 256 + 1 * q.val = win1_3.index t (1 : Fin 4) * 256 + 1 * q.val; omega
  | ⟨2, _⟩ => show win1_1.index t (2 : Fin 4) * 1 + 1 * 0 = 0; omega
  | ⟨3, _⟩ => show win1_1.index t (3 : Fin 4) * 1 + 1 * 0 = 0; omega

/-- The offset block at point `t`, read at (p, q, 0, 0), likewise. -/
private theorem dblk_apply (c : Dev nD) (t : Fin cfg1.N) (p : Fin 2) (q : Fin 256) (h w : Fin 56) :
    (iblk1 V c 2 t : Vec Ideal S2x256x1x1 .f32) (ix4 p q (0 : Fin 1) (0 : Fin 1))
      = (V c main_v48 : S32x256x1x1.Idx → EReal)
          (ix4 (n0 := 32) (n1 := 256) ((((cfg1.win 3).blk t).view.emb (ix4 p q h w) : S32x256x56x56.Idx) 0)
            ((((cfg1.win 3).blk t).view.emb (ix4 p q h w) : S32x256x56x56.Idx) 1) (0 : Fin 1) (0 : Fin 1)) := by
  obtain ⟨e0, e1, e2, e3, -, -, -, -, -, -, -, -, f0, f1, f2, f3⟩ := idx_facts t
  unfold iblk1
  rw [View.read_apply]
  show (V c main_v48 : S32x256x1x1.Idx → EReal) (((cfg1.win 2).blk t).view.emb (ix4 p q (0 : Fin 1) (0 : Fin 1))) = _
  refine congrArg (V c main_v48 : S32x256x1x1.Idx → EReal) (funext fun a => Fin.ext ?_)
  match a with
  | ⟨0, _⟩ => show win1_2.index t (0 : Fin 4) * 2 + 1 * p.val = win1_3.index t (0 : Fin 4) * 2 + 1 * p.val; omega
  | ⟨1, _⟩ => show win1_2.index t (1 : Fin 4) * 256 + 1 * q.val = win1_3.index t (1 : Fin 4) * 256 + 1 * q.val; omega
  | ⟨2, _⟩ => show win1_2.index t (2 : Fin 4) * 1 + 1 * 0 = 0; omega
  | ⟨3, _⟩ => show win1_2.index t (3 : Fin 4) * 1 + 1 * 0 = 0; omega

/-- What the body stores at an entry of its block is `affine` of the three arrays at that entry's place in the
    result array. -/
private theorem stored_apply (c : Dev nD) (t : Fin cfg1.N) (j : S2x256x56x56.Idx) :
    k1_pay1 (iblk1 V c 0 t) (iblk1 V c 1 t) (iblk1 V c 2 t) j
      = affine (V c main_arg0) (V c main_v47) (V c main_v48) (((cfg1.win 3).blk t).view.emb j) := by
  obtain ⟨p, q, h, w, rfl⟩ : ∃ (p : Fin 2) (q : Fin 256) (h w : Fin 56), j = ix4 p q h w :=
    ⟨j 0, j 1, j 2, j 3, eq_ix4 j⟩
  refine (pay_apply (iblk1 V c 0 t) (iblk1 V c 1 t) (iblk1 V c 2 t) p q h w).trans ?_
  rw [xblk_apply V c t p q h w, ablk_apply V c t p q h w, dblk_apply V c t p q h w]

/-- What point `t` writes back is block `t` of `affine` of the three arrays as the region finds them. -/
private theorem flushed_eq (c : Dev nD) (t : Fin cfg1.N) :
    (dat1 V c).flushed 3 t
      = ((cfg1.win 3).blk t).view.read (Elt Ideal) (affine (V c main_arg0) (V c main_v47) (V c main_v48)) := by
  show (cfg1.win 3).cut (grid1.coords t) ((dat1 V c).after 3 t) = _
  rw [after1_3]
  unfold out1_3
  rw [View.canon_unit_zero zero4]
  simp only [View.ld_unit_zero (S := S2x256x56x56) zero4, View.ld_unit_zero (S := S2x256x1x1) zero4]
  funext j
  exact stored_apply V c t j

/-- An index of the result array is in point `t`'s block iff each coordinate is in the block's range on its axis. -/
private theorem mem_blk (t : Fin cfg1.N) (i : S32x256x56x56.Idx) :
    i ∈ ((cfg1.win 3).blk t).view.set ↔ ∀ a : Fin 4, win1_3.index t a * S2x256x56x56.size a ≤ (i a).val
      ∧ (i a).val < win1_3.index t a * S2x256x56x56.size a + S2x256x56x56.size a := by
  show i ∈ ((View.whole main_v49).slice (win1_3.rect t)).set ↔ _
  rw [View.set_slice_whole, Rect.mem_set_unit]
  exact Iff.rfl

/-- The sixteen blocks tile the array: batch row b lies in the block of point b / 2. -/
private theorem cover (i : S32x256x56x56.Idx) :
    ∃ t : Fin cfg1.N, (cfg1.win 3).flush t = true ∧ i ∈ ((cfg1.win 3).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, ht⟩ := idx_onto ⟨(i 0).val / 2, by omega⟩
  have q0 : win1_3.index t (0 : Fin 4) = (i 0).val / 2 := congrFun ht 0
  have q1 : win1_3.index t (1 : Fin 4) = 0 := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 2 ≤ (i 0).val ∧ (i 0).val < win1_3.index t (0 : Fin 4) * 2 + 2; omega
  | ⟨1, _⟩ => show win1_3.index t (1 : Fin 4) * 256 ≤ (i 1).val ∧ (i 1).val < win1_3.index t (1 : Fin 4) * 256 + 256; omega
  | ⟨2, _⟩ => show win1_3.index t (2 : Fin 4) * 56 ≤ (i 2).val ∧ (i 2).val < win1_3.index t (2 : Fin 4) * 56 + 56; omega
  | ⟨3, _⟩ => show win1_3.index t (3 : Fin 4) * 56 ≤ (i 3).val ∧ (i 3).val < win1_3.index t (3 : Fin 4) * 56 + 56; omega

/-- So the result array ends holding `affine` of the three input arrays as the region finds them. -/
private theorem result_eq (c : Dev nD) :
    (dat1 V c).arrAt 3 cfg1.N = affine (V c main_arg0) (V c main_v47) (V c main_v48) :=
  (dat1 V c).arrAt_eq_of_cover 3 (affine (V c main_arg0) (V c main_v47) (V c main_v48))
    (fun t _ => flushed_eq V c t) cover

end Region

/-- After region 1, the result array at (b, ch, h, w) is `x · a + d` of the entry contents of its three inputs. -/
theorem affine_out (c : Dev nD) (b : Fin 32) (ch : Fin 256) (h w : Fin 56) :
    outArr m ρ c (ix4 b ch h w)
      = x4Arr m ρ c (ix4 b ch h w) * a4Arr m ρ c (ix4 b ch (0 : Fin 1) (0 : Fin 1)) + d4Arr m ρ c (ix4 b ch (0 : Fin 1) (0 : Fin 1)) := by
  exact (congrFun ((W5_arr m ρ c 3).trans (result_eq (V4 m ρ) c)) (ix4 b ch h w)).trans
    (affine_ix4 (x4Arr m ρ c) (a4Arr m ρ c) (d4Arr m ρ c) b ch h w)

end Cert.KAffine

end
-- ==== Proof.Chain.lean ====
/-
  The host arithmetic that the kernel's program and the reference share, each stretch named once as a function of
  the arrays it reads: the gating head (pooled means → fc1 → leaky ReLU → fc2 → softmax at temperature 30), the
  per-channel moments taken from per-(batch, channel) sums, the reciprocal standard deviation, and the gated
  scale / bias products.  Everything here is read at the ideal values (extended reals, exact operations).
-/
import proofs.«121786_j24163486007874_1_alg».proof.KernelIdeal
import Idealize.ShloMosaic.PureOps.Ideal

noncomputable section

namespace Cert.Chain

open Idealize.ShloMosaic Idealize.SL.Sem Cert.KernelIdeal
open Cert.KernelIdeal.Facts₀

variable [Cert.KernelIdeal.Facts]

/-- A per-(batch, channel) sum over the 56 × 56 positions divided by their number, 3136: the pooled mean. -/
def pooledOf (s : FVec Ideal S32x256 .f32) : FVec Ideal S32x256 .f32 :=
  Host.divf s (broadcastInDim S32x256 ![] bcast_S_S32x256 (constant (F := Ideal) S_ .f32 0x45440000#32))

/-- The gating head: `h = pooled · fc1ᵀ`, leaky ReLU with slope 0.01, `logits = h · fc2ᵀ`, and the softmax of
    `logits / 30` along the three ways (row maximum subtracted, exponentials divided by their row sum). -/
def gatesOf (p : FVec Ideal S32x256 .f32) (w1 : FVec Ideal S25x256 .f32) (w2 : FVec Ideal S3x25 .f32) :
    FVec Ideal S32x3 .f32 :=
  let v13 : FVec Ideal S256x25 .f32 := transpose S256x25 [1, 0] w1 transposes_S25x256_S256x25_1_0
  let v14 : FVec Ideal S32x25 .f32 := Host.dotGeneral dot_S32x256_S256x25_S32x25_1_0_0_1_n_n none p v13
  let v15 : FVec Ideal S32x25 .f32 := broadcastInDim S32x25 ![] bcast_S_S32x25 (constant (F := Ideal) S_ .f32 0x00000000#32)
  let v16 : IVec S32x25 1 := cmpf .ogt v14 v15
  let v17 : FVec Ideal S32x25 .f32 := broadcastInDim S32x25 ![] bcast_S_S32x25 (constant (F := Ideal) S_ .f32 0x3C23D70A#32)
  let v18 : FVec Ideal S32x25 .f32 := mulf v17 v14
  let v19 : FVec Ideal S32x25 .f32 := select v16 v14 v18
  let v20 : FVec Ideal S25x3 .f32 := transpose S25x3 [1, 0] w2 transposes_S3x25_S25x3_1_0
  let v21 : FVec Ideal S32x3 .f32 := Host.dotGeneral dot_S32x25_S25x3_S32x3_1_0_0_1_n_n none v19 v20
  let v22 : FVec Ideal S32x3 .f32 := broadcastInDim S32x3 ![] bcast_S_S32x3 (constant (F := Ideal) S_ .f32 0x41F00000#32)
  let v23 : FVec Ideal S32x3 .f32 := Host.divf v21 v22
  let v24 : FVec Ideal S32 .f32 := Host.reduce FloatOps.maximumf v23 (constant (F := Ideal) S_ .f32 0xFF800000#32) reducesTo_S32x3_S32_d1 h_S_
  let v25 : FVec Ideal S32 .f32 := broadcastInDim S32 ![] bcast_S_S32 (constant (F := Ideal) S_ .f32 0xFF800000#32)
  let v26 : FVec Ideal S32 .f32 := maximumf v25 v24
  let v27 : FVec Ideal S32x1 .f32 := broadcastInDim S32x1 ![0] bcast_S32_S32x1_0 v26
  let v28 : FVec Ideal S32x3 .f32 := broadcastInDim S32x3 ![0, 1] bcast_S32x1_S32x3_0_1 v27
  let v29 : FVec Ideal S32x3 .f32 := subf v23 v28
  let v30 : FVec Ideal S32x3 .f32 := Host.exp v29
  let v31 : FVec Ideal S32 .f32 := Host.reduceAdd v30 (constant (F := Ideal) S_ .f32 0x00000000#32) reducesTo_S32x3_S32_d1 h_S_
  let v32 : FVec Ideal S32x1 .f32 := broadcastInDim S32x1 ![0] bcast_S32_S32x1_0 v31
  let v33 : FVec Ideal S32x3 .f32 := broadcastInDim S32x3 ![0, 1] bcast_S32x1_S32x3_0_1 v32
  Host.divf v30 v33

/-- A [32, 256] array summed over the batch and divided by 32 · 56 · 56 = 100352: a per-channel moment. -/
def momentOf (s : FVec Ideal S32x256 .f32) : FVec Ideal S256 .f32 :=
  Host.divf (Host.reduceAdd s (constant (F := Ideal) S_ .f32 0x00000000#32) reducesTo_S32x256_S256_d0 h_S_)
    (broadcastInDim S256 ![] bcast_S_S256 (constant (F := Ideal) S_ .f32 0x47C40000#32))

/-- The variance as the second moment minus the squared mean. -/
def varOf (s1 s2 : FVec Ideal S32x256 .f32) : FVec Ideal S256 .f32 :=
  subf (momentOf s2) (mulf (momentOf s1) (momentOf s1))

/-- `1 / √(v + ε)`, ε the f32 nearest 1e-5. -/
def invStdOf (v : FVec Ideal S256 .f32) : FVec Ideal S256 .f32 :=
  Host.rsqrt (addf v (broadcastInDim S256 ![] bcast_S_S256 (constant (F := Ideal) S_ .f32 0x3727C5AC#32)))

/-- `gates · P` for a [3, 256] parameter table `P` (γ or β). -/
def mixOf (g : FVec Ideal S32x3 .f32) (P : FVec Ideal S3x256 .f32) : FVec Ideal S32x256 .f32 :=
  Host.dotGeneral dot_S32x3_S3x256_S32x256_1_0_0_1_n_n none g P

/-- A per-channel vector repeated down the 32 batch rows. -/
def rowsOf (v : FVec Ideal S256 .f32) : FVec Ideal S32x256 .f32 :=
  broadcastInDim S32x256 ![0, 1] bcast_S1x256_S32x256_0_1 (broadcastInDim S1x256 ![1] bcast_S256_S1x256_1 v)

/-- The multiplier of the kernel's affine pass: `scale · inv_std`. -/
def mulOf (g : FVec Ideal S32x3 .f32) (γ : FVec Ideal S3x256 .f32) (inv : FVec Ideal S256 .f32) : FVec Ideal S32x256 .f32 :=
  mulf (mixOf g γ) (rowsOf inv)

/-- Its offset: `bias − mean · (scale · inv_std)`. -/
def offOf (g : FVec Ideal S32x3 .f32) (β : FVec Ideal S3x256 .f32) (mean : FVec Ideal S256 .f32) (a : FVec Ideal S32x256 .f32) :
    FVec Ideal S32x256 .f32 :=
  subf (mixOf g β) (mulf (rowsOf mean) a)

end Cert.Chain

end
-- ==== Proof.KHost.lean ====
/-
  The host stretch between the two regions read as values: the multiplier and offset arrays the affine region finds are
  the shared host arithmetic (Chain) of the statistics region's two result arrays and the launched parameters, laid out
  as [32, 256, 1, 1]; the activations are still the launched ones; the gates array at the end of the run is the gating
  head of the pooled sums.
-/
import proofs.«121786_j24163486007874_1_alg».proof.Proof.KNames
import proofs.«121786_j24163486007874_1_alg».proof.Proof.Chain
import Idealize.ShloMosaic.Lib.ValueIdx
import Idealize.ShloMosaic.Lib.ValueLayout
import Idealize.ShloMosaic.Lib.Pipeline.Value
import Idealize.ShloMosaic.Lib.StableHlo.Run

noncomputable section

namespace Cert.KHost

open Idealize.ShloMosaic Idealize.ShloMosaic.TcCoe Idealize.SL.Sem Idealize.ShloMosaic.ValueIdx
open Cert.KernelIdeal Cert.KernelIdeal.Gen Cert.KNames

variable (m : (ℓ : Loc nD τ sig) → Buf (Elt Ideal) ℓ) (ρ : Dev nD → PrngReg)
open Cert.Chain

/-- An `[a, b, 1]` array cast to `[a, b]` reads, at `(i, j)`, the operand at `(i, j, 0)`: the two row-major positions
    are `(i · b + j) · 1 + 0` and `i · b + j`. -/
private theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1, 1]` reads, at `(i, j, u, v)`, the operand at `(i, j)`: both unit coordinates
    are `0`, so the row-major position `((i · b + j) · 1 + u) · 1 + v` is `i · b + j`. -/
private theorem shapeCast_ab_ab11_apply {α : Type} {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    simp only [hu, hv, Nat.mul_one, Nat.add_zero])

/-! ## The three host stretches from any contents `V` at the statistics region's exit

Each result buffer is the composed term of the operations that feed it, over `V` at the two result arrays of the
statistics region and at the launched parameters.  The lemmas take those five arrays by name (`S1`, `S2` the two result
arrays cast to [32, 256]; `w1`, `w2`, `g`, `β` the parameters), so that the run's own contents are substituted only
at the end and the composed term is compared with the shared host arithmetic once, over variables. -/

section Stretch

variable (V : Valuation τ sig (Elt Ideal))
  (S1 S2 : FVec Ideal S32x256 .f32) (w1 : FVec Ideal S25x256 .f32) (w2 : FVec Ideal S3x25 .f32)
  (g β : FVec Ideal S3x256 .f32)

/-- The gates buffer (%34): the gating head of the pooled sums. -/
private theorem gates_after
    (h1 : shapeCast S32x256 (V (Proc.devRef .tc main_v0_0) : FVec Ideal S32x256x1 .f32) shapeCasts_S32x256x1_S32x256 = S1)
    (hw1 : (V (Proc.devRef .tc main_arg1) : FVec Ideal S25x256 .f32) = w1)
    (hw2 : (V (Proc.devRef .tc main_arg2) : FVec Ideal S3x25 .f32) = w2) :
    StableHlo.after hostOps1_2 (StableHlo.after hostOps1_1 (StableHlo.after hostOps1 V)) (Proc.devRef .tc main_v34)
      = gatesOf (pooledOf S1) w1 w2 := by
  subst h1 hw1 hw2
  after_results_simp
  rfl

/-- The multiplier buffer (%47) is %42 = `mulOf …` cast to [32, 256, 1, 1]; at (b, ch, 0, 0) it reads %42 at (b, ch). -/
private theorem mul_after
    (h1 : shapeCast S32x256 (V (Proc.devRef .tc main_v0_0) : FVec Ideal S32x256x1 .f32) shapeCasts_S32x256x1_S32x256 = S1)
    (h2 : shapeCast S32x256 (V (Proc.devRef .tc main_v0_1) : FVec Ideal S32x256x1 .f32) shapeCasts_S32x256x1_S32x256 = S2)
    (hw1 : (V (Proc.devRef .tc main_arg1) : FVec Ideal S25x256 .f32) = w1)
    (hw2 : (V (Proc.devRef .tc main_arg2) : FVec Ideal S3x25 .f32) = w2)
    (hg : (V (Proc.devRef .tc main_arg3) : FVec Ideal S3x256 .f32) = g)
    (b : Fin 32) (ch : Fin 256) :
    (StableHlo.after hostOps1_2 (StableHlo.after hostOps1_1 (StableHlo.after hostOps1 V)) (Proc.devRef .tc main_v47)
        : FVec Ideal S32x256x1x1 .f32) (ix4 b ch (0 : Fin 1) (0 : Fin 1))
      = mulOf (gatesOf (pooledOf S1) w1 w2) g (invStdOf (varOf S1 S2)) (ix2 b ch) := by
  subst h1 h2 hw1 hw2 hg
  have h : StableHlo.after hostOps1_2 (StableHlo.after hostOps1_1 (StableHlo.after hostOps1 V)) (Proc.devRef .tc main_v47)
      = shapeCast S32x256x1x1
          (mulOf (gatesOf (pooledOf (shapeCast S32x256 (V (Proc.devRef .tc main_v0_0) : FVec Ideal S32x256x1 .f32) shapeCasts_S32x256x1_S32x256))
              (V (Proc.devRef .tc main_arg1)) (V (Proc.devRef .tc main_arg2)))
            (V (Proc.devRef .tc main_arg3))
            (invStdOf (varOf (shapeCast S32x256 (V (Proc.devRef .tc main_v0_0) : FVec Ideal S32x256x1 .f32) shapeCasts_S32x256x1_S32x256)
              (shapeCast S32x256 (V (Proc.devRef .tc main_v0_1) : FVec Ideal S32x256x1 .f32) shapeCasts_S32x256x1_S32x256))))
          shapeCasts_S32x256_S32x256x1x1 := by
    after_results_simp
    rfl
  rw [h]
  exact shapeCast_ab_ab11_apply _ _ b ch 0 0

/-- The offset buffer (%48) is %46 = `offOf …` cast to [32, 256, 1, 1]; at (b, ch, 0, 0) it reads %46 at (b, ch). -/
private theorem off_after
    (h1 : shapeCast S32x256 (V (Proc.devRef .tc main_v0_0) : FVec Ideal S32x256x1 .f32) shapeCasts_S32x256x1_S32x256 = S1)
    (h2 : shapeCast S32x256 (V (Proc.devRef .tc main_v0_1) : FVec Ideal S32x256x1 .f32) shapeCasts_S32x256x1_S32x256 = S2)
    (hw1 : (V (Proc.devRef .tc main_arg1) : FVec Ideal S25x256 .f32) = w1)
    (hw2 : (V (Proc.devRef .tc main_arg2) : FVec Ideal S3x25 .f32) = w2)
    (hg : (V (Proc.devRef .tc main_arg3) : FVec Ideal S3x256 .f32) = g)
    (hβ : (V (Proc.devRef .tc main_arg4) : FVec Ideal S3x256 .f32) = β)
    (b : Fin 32) (ch : Fin 256) :
    (StableHlo.after hostOps1_2 (StableHlo.after hostOps1_1 (StableHlo.after hostOps1 V)) (Proc.devRef .tc main_v48)
        : FVec Ideal S32x256x1x1 .f32) (ix4 b ch (0 : Fin 1) (0 : Fin 1))
      = offOf (gatesOf (pooledOf S1) w1 w2) β (momentOf S1)
          (mulOf (gatesOf (pooledOf S1) w1 w2) g (invStdOf (varOf S1 S2))) (ix2 b ch) := by
  subst h1 h2 hw1 hw2 hg hβ
  have h : StableHlo.after hostOps1_2 (StableHlo.after hostOps1_1 (StableHlo.after hostOps1 V)) (Proc.devRef .tc main_v48)
      = shapeCast S32x256x1x1
          (offOf (gatesOf (pooledOf (shapeCast S32x256 (V (Proc.devRef .tc main_v0_0) : FVec Ideal S32x256x1 .f32) shapeCasts_S32x256x1_S32x256))
              (V (Proc.devRef .tc main_arg1)) (V (Proc.devRef .tc main_arg2)))
            (V (Proc.devRef .tc main_arg4))
            (momentOf (shapeCast S32x256 (V (Proc.devRef .tc main_v0_0) : FVec Ideal S32x256x1 .f32) shapeCasts_S32x256x1_S32x256))
            (mulOf (gatesOf (pooledOf (shapeCast S32x256 (V (Proc.devRef .tc main_v0_0) : FVec Ideal S32x256x1 .f32) shapeCasts_S32x256x1_S32x256))
                (V (Proc.devRef .tc main_arg1)) (V (Proc.devRef .tc main_arg2)))
              (V (Proc.devRef .tc main_arg3))
              (invStdOf (varOf (shapeCast S32x256 (V (Proc.devRef .tc main_v0_0) : FVec Ideal S32x256x1 .f32) shapeCasts_S32x256x1_S32x256)
                (shapeCast S32x256 (V (Proc.devRef .tc main_v0_1) : FVec Ideal S32x256x1 .f32) shapeCasts_S32x256x1_S32x256)))))
          shapeCasts_S32x256_S32x256x1x1 := by
    after_results_simp
    rfl
  rw [h]
  exact shapeCast_ab_ab11_apply _ _ b ch 0 0

end Stretch

/-! ## At the run's own contents -/

/-- The statistics region's sums as a [32, 256] array: entry (b, ch) is the result array's entry (b, ch, 0). -/
def s1Mat (c : Dev nD) : S32x256.Idx → EReal := fun j => s1Arr m ρ c (ix3 (j 0) (j 1) (0 : Fin 1))
/-- Likewise the sums of squares. -/
def s2Mat (c : Dev nD) : S32x256.Idx → EReal := fun j => s2Arr m ρ c (ix3 (j 0) (j 1) (0 : Fin 1))

/-- The gates the kernel's program computes: the gating head of the pooled sums and the two launched weight tables. -/
def gatesK (c : Dev nD) : S32x3.Idx → EReal := gatesOf (pooledOf (s1Mat m ρ c)) (w1Arr m c) (w2Arr m c)

/-- The first result array cast to [32, 256] is `s1Mat`: the trailing unit axis is dropped. -/
private theorem cast_s1 (c : Dev nD) :
    shapeCast S32x256 (W1 m ρ c (Proc.devRef .tc main_v0_0) : FVec Ideal S32x256x1 .f32) shapeCasts_S32x256x1_S32x256 = s1Mat m ρ c :=
  funext fun j => by
    obtain ⟨b, ch, rfl⟩ : ∃ (b : Fin 32) (ch : Fin 256), j = ix2 b ch := ⟨j 0, j 1, eq_ix2 j⟩
    exact shapeCast_ab1_ab_apply _ _ b ch
/-- Likewise the second. -/
private theorem cast_s2 (c : Dev nD) :
    shapeCast S32x256 (W1 m ρ c (Proc.devRef .tc main_v0_1) : FVec Ideal S32x256x1 .f32) shapeCasts_S32x256x1_S32x256 = s2Mat m ρ c :=
  funext fun j => by
    obtain ⟨b, ch, rfl⟩ : ∃ (b : Fin 32) (ch : Fin 256), j = ix2 b ch := ⟨j 0, j 1, eq_ix2 j⟩
    exact shapeCast_ab1_ab_apply _ _ b ch

/-- The statistics region has no parameter table among its arrays, so each is still as launched at its exit. -/
private theorem w1_at (c : Dev nD) : (W1 m ρ c (Proc.devRef .tc main_arg1) : FVec Ideal S25x256 .f32) = w1Arr m c :=
  (W1_of_ne m ρ c main_arg1 (by decide)).trans rfl
private theorem w2_at (c : Dev nD) : (W1 m ρ c (Proc.devRef .tc main_arg2) : FVec Ideal S3x25 .f32) = w2Arr m c :=
  (W1_of_ne m ρ c main_arg2 (by decide)).trans rfl
private theorem g_at (c : Dev nD) : (W1 m ρ c (Proc.devRef .tc main_arg3) : FVec Ideal S3x256 .f32) = gArr m c :=
  (W1_of_ne m ρ c main_arg3 (by decide)).trans rfl
private theorem b_at (c : Dev nD) : (W1 m ρ c (Proc.devRef .tc main_arg4) : FVec Ideal S3x256 .f32) = bArr m c :=
  (W1_of_ne m ρ c main_arg4 (by decide)).trans rfl

/-- The affine region finds the activations as launched: the activations are the affine region's first input window,
    which a region leaves as it found it, and at the end of the run they are the launched ones. -/
theorem x4_eq (c : Dev nD) : x4Arr m ρ c = xArr m c :=
  calc W4 m ρ c (Proc.devRef .tc main_arg0)
    _ = W5 m ρ c (Proc.devRef .tc main_arg0) :=
        ((W5_arr m ρ c 0).trans (((dat1 (V4 m ρ) c).arrAt_in 0 rfl _).trans (A_eq1 (V4 m ρ) c 0))).symm
    _ = m ((c : Thread nD τ).loc main_arg0) := W5_main_arg0 m ρ c

/-- The gates array at the end of the run is `gatesK`: the affine region does not have it among its arrays, and the
    host stretches leave the gating head of the pooled sums there. -/
theorem gates_eq (c : Dev nD) : gatesArr m ρ c = gatesK m ρ c :=
  (W5_of_ne m ρ c main_v34 (by decide)).trans
    (gates_after (W1 m ρ c) (s1Mat m ρ c) (w1Arr m c) (w2Arr m c) (cast_s1 m ρ c) (w1_at m ρ c) (w2_at m ρ c))

/-- The multiplier array at (b, ch, 0, 0): `(gates · γ)[b, ch] · inv_std[ch]` with the variance taken from the two sums. -/
theorem a4_apply (c : Dev nD) (b : Fin 32) (ch : Fin 256) :
    a4Arr m ρ c (ix4 b ch (0 : Fin 1) (0 : Fin 1))
      = mulOf (gatesK m ρ c) (gArr m c) (invStdOf (varOf (s1Mat m ρ c) (s2Mat m ρ c))) (ix2 b ch) :=
  mul_after (W1 m ρ c) (s1Mat m ρ c) (s2Mat m ρ c) (w1Arr m c) (w2Arr m c) (gArr m c)
    (cast_s1 m ρ c) (cast_s2 m ρ c) (w1_at m ρ c) (w2_at m ρ c) (g_at m ρ c) b ch

/-- The offset array at (b, ch, 0, 0): `(gates · β)[b, ch] − mean[ch] · multiplier[b, ch]`. -/
theorem d4_apply (c : Dev nD) (b : Fin 32) (ch : Fin 256) :
    d4Arr m ρ c (ix4 b ch (0 : Fin 1) (0 : Fin 1))
      = offOf (gatesK m ρ c) (bArr m c) (momentOf (s1Mat m ρ c))
          (mulOf (gatesK m ρ c) (gArr m c) (invStdOf (varOf (s1Mat m ρ c) (s2Mat m ρ c)))) (ix2 b ch) :=
  off_after (W1 m ρ c) (s1Mat m ρ c) (s2Mat m ρ c) (w1Arr m c) (w2Arr m c) (gArr m c) (bArr m c)
    (cast_s1 m ρ c) (cast_s2 m ρ c) (w1_at m ρ c) (w2_at m ρ c) (g_at m ρ c) (b_at m ρ c) b ch

end Cert.KHost

end
-- ==== Proof.RChain.lean ====
/-
  The reference's own arithmetic, each stretch named once as a function of the arrays it reads: the sums of the
  activations over the 56 × 56 positions and over batch and positions, the centred two-pass variance that `jnp.var`
  computes (guarded by its "degrees of freedom positive" test), and the normalise-then-mix expression of the result.
  Read at the ideal values.
-/
import proofs.«121786_j24163486007874_1_alg».proof.ReferenceIdeal
import proofs.«121786_j24163486007874_1_alg».proof.Proof.Chain

noncomputable section

namespace Cert.RChain

open Idealize.ShloMosaic Idealize.SL.Sem Cert.ReferenceIdeal
open Cert.ReferenceIdeal.Facts₀

variable [Cert.ReferenceIdeal.Facts]

/-- `Σ_{h,w} x[b,c,h,w]` as the host computes it. -/
def sumHW (x : FVec Ideal S32x256x56x56 .f32) : FVec Ideal S32x256 .f32 :=
  Host.reduceAdd x (constant (F := Ideal) S_ .f32 0x00000000#32) reducesTo_S32x256x56x56_S32x256_d2_3 h_S_

/-- `Σ_{b,h,w} x[b,c,h,w]` as the host computes it. -/
def sumBHW (x : FVec Ideal S32x256x56x56 .f32) : FVec Ideal S256 .f32 :=
  Host.reduceAdd x (constant (F := Ideal) S_ .f32 0x00000000#32) reducesTo_S32x256x56x56_S256_d0_2_3 h_S_

/-- The per-channel mean: that sum divided by 100352. -/
def meanOf (x : FVec Ideal S32x256x56x56 .f32) : FVec Ideal S256 .f32 :=
  Host.divf (sumBHW x) (broadcastInDim S256 ![] bcast_S_S256 (constant (F := Ideal) S_ .f32 0x47C40000#32))

/-- A per-channel vector laid along axis 1 of a [1, 256, 1, 1] array and repeated over batch and positions. -/
def chanOf (v : FVec Ideal S256 .f32) : FVec Ideal S32x256x56x56 .f32 :=
  broadcastInDim S32x256x56x56 ![0, 1, 2, 3] bcast_S1x256x1x1_S32x256x56x56_0_1_2_3
    (broadcastInDim S1x256x1x1 ![1] bcast_S256_S1x256x1x1_1 v)

/-- A per-(batch, channel) array repeated over the positions. -/
def bcOf (v : FVec Ideal S32x256 .f32) : FVec Ideal S32x256x56x56 .f32 :=
  broadcastInDim S32x256x56x56 ![0, 1, 2, 3] bcast_S32x256x1x1_S32x256x56x56_0_1_2_3
    (broadcastInDim S32x256x1x1 ![0, 1] bcast_S32x256_S32x256x1x1_0_1 v)

/-- The "degrees of freedom" `jnp.var` divides by: 100352 minus the correction 0, converted from an integer. -/
def dofOf : FVec Ideal S_ .f32 :=
  subf (constant (F := Ideal) S_ .f32 0x47C40000#32) (sitofp .f32 (constantI S_ 32 0#32))

/-- `jnp.var` over batch and positions: the mean of the squared deviations from the mean (computed inside, by the
    same sum and quotient), returned where the degrees of freedom are positive and a NaN pattern otherwise. -/
def varOf (x : FVec Ideal S32x256x56x56 .f32) : FVec Ideal S256 .f32 :=
  let v3 : FVec Ideal S1x256x1x1 .f32 :=
    Host.divf (broadcastInDim S1x256x1x1 ![1] bcast_S256_S1x256x1x1_1 (sumBHW x))
      (broadcastInDim S1x256x1x1 ![] bcast_S_S1x256x1x1 (constant (F := Ideal) S_ .f32 0x47C40000#32))
  let v4 : FVec Ideal S32x256x56x56 .f32 := broadcastInDim S32x256x56x56 ![0, 1, 2, 3] bcast_S1x256x1x1_S32x256x56x56_0_1_2_3 v3
  let v5 : FVec Ideal S32x256x56x56 .f32 := subf x v4
  let v6 : FVec Ideal S32x256x56x56 .f32 := mulf v5 v5
  let v9 : FVec Ideal S256 .f32 := Host.reduceAdd v6 (constant (F := Ideal) S_ .f32 0x00000000#32) reducesTo_S32x256x56x56_S256_d0_2_3 h_S_
  let v10 : FVec Ideal S256 .f32 := broadcastInDim S256 ![] bcast_S_S256 dofOf
  let v11 : FVec Ideal S256 .f32 := Host.divf v9 v10
  let v12 : IVec S_ 1 := cmpf .ogt dofOf (constant (F := Ideal) S_ .f32 0x00000000#32)
  let w1 : FVec Ideal S256 .f32 := broadcastInDim S256 ![] bcast_S_S256 (id (constant (F := Ideal) S_ .f32 0x7FC00000#32))
  select (broadcastInDim S256 ![] bcast_S_S256 v12) v11 w1

/-- The reference's result: `((x − mean) · inv_std) · scale + bias`, mean and inverse deviation per channel, scale
    and bias per (batch, channel). -/
def outOf (x : FVec Ideal S32x256x56x56 .f32) (inv : FVec Ideal S256 .f32) (sc bi : FVec Ideal S32x256 .f32) :
    FVec Ideal S32x256x56x56 .f32 :=
  addf (mulf (mulf (subf x (chanOf (meanOf x))) (chanOf inv)) (bcOf sc)) (bcOf bi)

end Cert.RChain

end
-- ==== Proof.Consts.lean ====
/-
  The float constants the two programs spell, as the extended reals their bit patterns denote at the ideal values, and
  the notion "every entry of an array is a real number" that the finiteness precondition provides and the exact
  arithmetic preserves.
-/
import Idealize.ShloMosaic.PureOps.Ideal

noncomputable section

namespace Cert.Consts

open Idealize.ShloMosaic

/-- Every entry of the array is a real number (neither infinity). -/
def AllReal {s : Shape} (v : s.Idx → EReal) : Prop := ∀ i, ∃ r : ℝ, v i = (r : EReal)

/-- `0.0` denotes `0`. -/
theorem ofBits_zero : Ideal.ofBits .f32 0x00000000#32 = 0 := by
  simp [Ideal.ofBits, Ideal.ieee]

/-- `100352.0` (= 32 · 56 · 56) denotes the real 100352. -/
theorem ofBits_n : Ideal.ofBits .f32 0x47C40000#32 = ((100352 : ℝ) : EReal) := by
  simp [Ideal.ofBits, Ideal.ieee, -EReal.coe_mul]; norm_num

/-- `3136.0` (= 56 · 56) denotes the real 3136. -/
theorem ofBits_hw : Ideal.ofBits .f32 0x45440000#32 = ((3136 : ℝ) : EReal) := by
  simp [Ideal.ofBits, Ideal.ieee, -EReal.coe_mul]; norm_num

/-- `30.0` denotes the real 30. -/
theorem ofBits_temp : Ideal.ofBits .f32 0x41F00000#32 = ((30 : ℝ) : EReal) := by
  simp [Ideal.ofBits, Ideal.ieee, -EReal.coe_mul]; norm_num

/-- The f32 nearest 0.01 denotes some real. -/
theorem ofBits_slope : ∃ r : ℝ, Ideal.ofBits .f32 0x3C23D70A#32 = (r : EReal) := by
  refine ⟨(10737418 : ℝ) * (2 : ℝ) ^ (-30 : ℤ), ?_⟩
  simp [Ideal.ofBits, Ideal.ieee, -EReal.coe_mul]

/-- The f32 nearest 1e-5 denotes a positive real. -/
theorem ofBits_eps : ∃ r : ℝ, 0 < r ∧ Ideal.ofBits .f32 0x3727C5AC#32 = (r : EReal) := by
  refine ⟨(10995116 : ℝ) * (2 : ℝ) ^ (-40 : ℤ), by positivity, ?_⟩
  simp [Ideal.ofBits, Ideal.ieee, -EReal.coe_mul]

/-- The pattern of `-inf` denotes `⊥`. -/
theorem ofBits_neginf : Ideal.ofBits .f32 0xFF800000#32 = ⊥ := by
  simp [Ideal.ofBits, Ideal.ieee]

/-- The signed integer 0 converts to the real 0. -/
theorem sitofp_zero : (FloatOps.sitofp (F := Ideal) .f32 (0#32 : BitVec 32)) = (0 : EReal) := by
  show (((0#32 : BitVec 32).toInt : ℝ) : EReal) = 0
  simp

end Cert.Consts

end
-- ==== Proof.Sums.lean ====
/-
  The host's sums read at an index, at the ideal values: a `reduce add` of a [32, 256, 56, 56] array over its two
  position axes at (b, c) is the double sum over the positions, over batch and positions at c the triple sum, and a
  `reduce add` of a [32, 256] array over the batch at c the sum over the batch (the initial value 0 drops out).
-/
import proofs.«121786_j24163486007874_1_alg».proof.Proof.Chain
import proofs.«121786_j24163486007874_1_alg».proof.Proof.RChain
import proofs.«121786_j24163486007874_1_alg».proof.Proof.Gen.KernelIdeal
import proofs.«121786_j24163486007874_1_alg».proof.Proof.Gen.ReferenceIdeal
import proofs.«121786_j24163486007874_1_alg».proof.Proof.Consts
import Idealize.ShloMosaic.Lib.ValueIdx
import Idealize.ShloMosaic.PureOps.Ideal.Laws

noncomputable section

namespace Cert.Sums

open Idealize.ShloMosaic Idealize.SL.Sem Idealize.ShloMosaic.ValueIdx
open Cert.Consts

/-! ### The indices a reduction gathers, named by coordinates

A host sum over some axes adds, at a result index, the operand over every index whose kept coordinates are the
result's.  For the three reductions met here those indices are the result's coordinates with the dropped ones
inserted, so the sum is the iterated sum over the dropped coordinates. -/

/-- Over the two trailing axes of a rank-4 array: the indices over (b, ch) are (b, ch, h, w). -/
private theorem hostReduceAdd_trailing2 {n0 n1 n2 n3 : Nat}
    (h : (⟨4, ![n0, n1, n2, n3]⟩ : Shape).ReducesTo [2, 3] ⟨2, ![n0, n1]⟩)
    (x : (⟨4, ![n0, n1, n2, n3]⟩ : Shape).Idx → EReal) (init : EReal) (b : Fin n0) (ch : Fin n1) :
    Ideal.hostReduceAdd h x init (ix2 b ch) = init + ∑ hh : Fin n2, ∑ w : Fin n3, x (ix4 b ch hh w) := by
  unfold Ideal.hostReduceAdd
  congr 1
  rw [← Finset.sum_product']
  -- the kept axes are the two leading ones
  have d0 : ∀ i : (⟨4, ![n0, n1, n2, n3]⟩ : Shape).Idx, (h.drop i 0).val = (i 0).val := fun _ => rfl
  have d1 : ∀ i : (⟨4, ![n0, n1, n2, n3]⟩ : Shape).Idx, (h.drop i 1).val = (i 1).val := fun _ => rfl
  -- so an index over (b, ch) has those two leading coordinates
  have lead : ∀ i : (⟨4, ![n0, n1, n2, n3]⟩ : Shape).Idx, h.drop i = ix2 b ch → ix4 b ch (i 2) (i 3) = i := by
    intro i hi
    have e0 : (i 0).val = b.val := by rw [← d0, hi]; rfl
    have e1 : (i 1).val = ch.val := by rw [← d1, hi]; rfl
    funext a
    match a with
    | ⟨0, _⟩ => exact Fin.ext e0.symm
    | ⟨1, _⟩ => exact Fin.ext e1.symm
    | ⟨2, _⟩ => rfl
    | ⟨3, _⟩ => rfl
  refine Finset.sum_nbij' (fun i => (i 2, i 3)) (fun p => ix4 b ch p.1 p.2) ?_ ?_ ?_ ?_ ?_
  · intro i _; exact Finset.mem_product.2 ⟨Finset.mem_univ _, Finset.mem_univ _⟩
  · intro p _
    refine Finset.mem_filter.2 ⟨Finset.mem_univ _, ?_⟩
    funext a
    match a with
    | ⟨0, _⟩ => exact Fin.ext (d0 _)
    | ⟨1, _⟩ => exact Fin.ext (d1 _)
  · intro i hi; exact lead i (Finset.mem_filter.1 hi).2
  · intro p _; rfl
  · intro i hi; exact congrArg x (lead i (Finset.mem_filter.1 hi).2).symm

/-- Over every axis of a rank-4 array but the second: the indices over ch are (b, ch, h, w). -/
private theorem hostReduceAdd_allBut1 {n0 n1 n2 n3 : Nat}
    (h : (⟨4, ![n0, n1, n2, n3]⟩ : Shape).ReducesTo [0, 2, 3] ⟨1, ![n1]⟩)
    (x : (⟨4, ![n0, n1, n2, n3]⟩ : Shape).Idx → EReal) (init : EReal) (ch : Fin n1) :
    Ideal.hostReduceAdd h x init (ix1 ch)
      = init + ∑ b : Fin n0, ∑ hh : Fin n2, ∑ w : Fin n3, x (ix4 b ch hh w) := by
  unfold Ideal.hostReduceAdd
  congr 1
  -- the triple sum as one sum over the triples (b, (h, w))
  have triple : (∑ b : Fin n0, ∑ hh : Fin n2, ∑ w : Fin n3, x (ix4 b ch hh w))
      = ∑ p : Fin n0 × Fin n2 × Fin n3, x (ix4 p.1 ch p.2.1 p.2.2) := by
    rw [Fintype.sum_prod_type]
    refine Finset.sum_congr rfl fun b _ => ?_
    rw [Fintype.sum_prod_type]
  rw [triple]
  -- the one kept axis is the second
  have d0 : ∀ i : (⟨4, ![n0, n1, n2, n3]⟩ : Shape).Idx, (h.drop i 0).val = (i 1).val := fun _ => rfl
  have mid : ∀ i : (⟨4, ![n0, n1, n2, n3]⟩ : Shape).Idx, h.drop i = ix1 ch → ix4 (i 0) ch (i 2) (i 3) = i := by
    intro i hi
    have e1 : (i 1).val = ch.val := by rw [← d0, hi]; rfl
    funext a
    match a with
    | ⟨0, _⟩ => rfl
    | ⟨1, _⟩ => exact Fin.ext e1.symm
    | ⟨2, _⟩ => rfl
    | ⟨3, _⟩ => rfl
  refine Finset.sum_nbij' (fun i => (i 0, i 2, i 3)) (fun p => ix4 p.1 ch p.2.1 p.2.2) ?_ ?_ ?_ ?_ ?_
  · intro i _; exact Finset.mem_univ _
  · intro p _
    refine Finset.mem_filter.2 ⟨Finset.mem_univ _, ?_⟩
    funext a
    match a with
    | ⟨0, _⟩ => exact Fin.ext (d0 _)
  · intro i hi; exact mid i (Finset.mem_filter.1 hi).2
  · intro p _; rfl
  · intro i hi; exact congrArg x (mid i (Finset.mem_filter.1 hi).2).symm

/-- Over the leading axis of a rank-2 array: the indices over ch are (b, ch). -/
private theorem hostReduceAdd_leading {n0 n1 : Nat}
    (h : (⟨2, ![n0, n1]⟩ : Shape).ReducesTo [0] ⟨1, ![n1]⟩)
    (s : (⟨2, ![n0, n1]⟩ : Shape).Idx → EReal) (init : EReal) (ch : Fin n1) :
    Ideal.hostReduceAdd h s init (ix1 ch) = init + ∑ b : Fin n0, s (ix2 b ch) := by
  unfold Ideal.hostReduceAdd
  congr 1
  -- the one kept axis is the second
  have d0 : ∀ i : (⟨2, ![n0, n1]⟩ : Shape).Idx, (h.drop i 0).val = (i 1).val := fun _ => rfl
  have col : ∀ i : (⟨2, ![n0, n1]⟩ : Shape).Idx, h.drop i = ix1 ch → ix2 (i 0) ch = i := by
    intro i hi
    have e1 : (i 1).val = ch.val := by rw [← d0, hi]; rfl
    funext a
    match a with
    | ⟨0, _⟩ => rfl
    | ⟨1, _⟩ => exact Fin.ext e1.symm
  refine Finset.sum_nbij' (fun i => i 0) (fun b => ix2 b ch) ?_ ?_ ?_ ?_ ?_
  · intro i _; exact Finset.mem_univ _
  · intro b _
    refine Finset.mem_filter.2 ⟨Finset.mem_univ _, ?_⟩
    funext a
    match a with
    | ⟨0, _⟩ => exact Fin.ext (d0 _)
  · intro i hi; exact col i (Finset.mem_filter.1 hi).2
  · intro b _; rfl
  · intro i hi; exact congrArg s (col i (Finset.mem_filter.1 hi).2).symm

/-- The sum over the positions, at (b, ch). -/
theorem sumHW_apply (x : Cert.ReferenceIdeal.S32x256x56x56.Idx → EReal) (b : Fin 32) (ch : Fin 256) :
    Cert.RChain.sumHW x (ix2 b ch) = ∑ h : Fin 56, ∑ w : Fin 56, x (ix4 b ch h w) := by
  -- the host's sum starts from the initial array's one element, the constant 0
  show Ideal.hostReduceAdd _ x (Ideal.ofBits .f32 0x00000000#32) (ix2 b ch) = _
  rw [hostReduceAdd_trailing2, ofBits_zero, zero_add]

/-- The sum over batch and positions, at ch. -/
theorem sumBHW_apply (x : Cert.ReferenceIdeal.S32x256x56x56.Idx → EReal) (ch : Fin 256) :
    Cert.RChain.sumBHW x (ix1 ch) = ∑ b : Fin 32, ∑ h : Fin 56, ∑ w : Fin 56, x (ix4 b ch h w) := by
  show Ideal.hostReduceAdd _ x (Ideal.ofBits .f32 0x00000000#32) (ix1 ch) = _
  rw [hostReduceAdd_allBut1, ofBits_zero, zero_add]

/-- The sum of a [32, 256] array over the batch, at ch. -/
theorem batchSum_apply (s : Cert.KernelIdeal.S32x256.Idx → EReal) (ch : Fin 256) :
    Host.reduceAdd (F := Ideal) s (constant (F := Ideal) Cert.KernelIdeal.S_ .f32 0x00000000#32)
        Cert.KernelIdeal.Facts₀.reducesTo_S32x256_S256_d0 Cert.KernelIdeal.Facts₀.h_S_ (ix1 ch)
      = ∑ b : Fin 32, s (ix2 b ch) := by
  show Ideal.hostReduceAdd _ s (Ideal.ofBits .f32 0x00000000#32) (ix1 ch) = _
  rw [hostReduceAdd_leading, ofBits_zero, zero_add]

end Cert.Sums

end
-- ==== Proof.Layout.lean ====
/-
  The shared arithmetic read at an index, at the ideal values: each named stretch (Chain, RChain) as a scalar expression
  of the entries it depends on.  Broadcasts only repeat entries; the per-channel moments are a batch sum over 100352;
  the two-pass variance's guard is true (its degrees of freedom are 100352 − 0 > 0), so it is the mean of the squared
  deviations.
-/
import proofs.«121786_j24163486007874_1_alg».proof.Proof.Chain
import proofs.«121786_j24163486007874_1_alg».proof.Proof.RChain
import proofs.«121786_j24163486007874_1_alg».proof.Proof.Sums
import proofs.«121786_j24163486007874_1_alg».proof.Proof.Consts
import proofs.«121786_j24163486007874_1_alg».proof.Proof.Gen.KernelIdeal
import proofs.«121786_j24163486007874_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Layout

open Idealize.ShloMosaic Idealize.SL.Sem Idealize.ShloMosaic.ValueIdx
open Cert.Consts
open Cert.KernelIdeal Cert.Chain

/-- The divisor 32 · 56 · 56 as the programs spell it. -/
abbrev nC : EReal := Ideal.ofBits .f32 0x47C40000#32
/-- ε as the programs spell it. -/
abbrev epsC : EReal := Ideal.ofBits .f32 0x3727C5AC#32

/-! ### Broadcasts read at an index -/

/-- A scalar constant broadcast to any shape reads the constant's value at every index. -/
private theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := rfl

/-- A per-channel vector repeated down the batch rows reads, at (b, ch), its entry at ch. -/
private theorem rowsOf_apply (v : S256.Idx → EReal) (b : Fin 32) (ch : Fin 256) :
    rowsOf v (ix2 b ch) = v (ix1 ch) := by
  unfold rowsOf
  refine (broadcastInDim_apply _ _ _ (ix2 b ch) (ix2 (0 : Fin 1) ch)
    (fun a => match a with | ⟨0, _⟩ => rfl | ⟨1, _⟩ => rfl)).trans ?_
  exact broadcastInDim_apply _ _ _ (ix2 (0 : Fin 1) ch) (ix1 ch) (fun a => match a with | ⟨0, _⟩ => rfl)

/-- A per-channel vector laid along axis 1 and repeated over batch and positions reads, at (b, ch, h, w), its
    entry at ch. -/
private theorem chanOf_apply (v : S256.Idx → EReal) (b : Fin 32) (ch : Fin 256) (h w : Fin 56) :
    Cert.RChain.chanOf v (ix4 b ch h w) = v (ix1 ch) := by
  unfold Cert.RChain.chanOf
  refine (broadcastInDim_apply _ _ _ (ix4 b ch h w) (ix4 (0 : Fin 1) ch (0 : Fin 1) (0 : Fin 1))
    (fun a => match a with | ⟨0, _⟩ => rfl | ⟨1, _⟩ => rfl | ⟨2, _⟩ => rfl | ⟨3, _⟩ => rfl)).trans ?_
  exact broadcastInDim_apply _ _ _ (ix4 (0 : Fin 1) ch (0 : Fin 1) (0 : Fin 1)) (ix1 ch)
    (fun a => match a with | ⟨0, _⟩ => rfl)

/-- A per-(batch, channel) array repeated over the positions reads, at (b, ch, h, w), its entry at (b, ch). -/
private theorem bcOf_apply (v : S32x256.Idx → EReal) (b : Fin 32) (ch : Fin 256) (h w : Fin 56) :
    Cert.RChain.bcOf v (ix4 b ch h w) = v (ix2 b ch) := by
  unfold Cert.RChain.bcOf
  refine (broadcastInDim_apply _ _ _ (ix4 b ch h w) (ix4 b ch (0 : Fin 1) (0 : Fin 1))
    (fun a => match a with | ⟨0, _⟩ => rfl | ⟨1, _⟩ => rfl | ⟨2, _⟩ => rfl | ⟨3, _⟩ => rfl)).trans ?_
  exact broadcastInDim_apply _ _ _ (ix4 b ch (0 : Fin 1) (0 : Fin 1)) (ix2 b ch)
    (fun a => match a with | ⟨0, _⟩ => rfl | ⟨1, _⟩ => rfl)

/-! ### The kernel-side stretches -/

theorem mulOf_apply (g : S32x3.Idx → EReal) (γ : S3x256.Idx → EReal) (inv : S256.Idx → EReal) (b : Fin 32) (ch : Fin 256) :
    mulOf g γ inv (ix2 b ch) = mixOf g γ (ix2 b ch) * inv (ix1 ch) := by
  show mixOf g γ (ix2 b ch) * rowsOf inv (ix2 b ch) = _
  rw [rowsOf_apply]

theorem offOf_apply (g : S32x3.Idx → EReal) (β : S3x256.Idx → EReal) (mean : S256.Idx → EReal) (a : S32x256.Idx → EReal)
    (b : Fin 32) (ch : Fin 256) :
    offOf g β mean a (ix2 b ch) = mixOf g β (ix2 b ch) - mean (ix1 ch) * a (ix2 b ch) := by
  show mixOf g β (ix2 b ch) - rowsOf mean (ix2 b ch) * a (ix2 b ch) = _
  rw [rowsOf_apply]

theorem invStdOf_apply (v : S256.Idx → EReal) (ch : Fin 256) :
    invStdOf v (ix1 ch) = Ideal.rsqrt (v (ix1 ch) + epsC) := rfl

theorem momentOf_apply (s : S32x256.Idx → EReal) (ch : Fin 256) :
    momentOf s (ix1 ch) = Ideal.div (∑ b : Fin 32, s (ix2 b ch)) nC := by
  show Ideal.div (Host.reduceAdd (F := Ideal) s (constant (F := Ideal) Cert.KernelIdeal.S_ .f32 0x00000000#32)
      Cert.KernelIdeal.Facts₀.reducesTo_S32x256_S256_d0 Cert.KernelIdeal.Facts₀.h_S_ (ix1 ch)) nC = _
  rw [Cert.Sums.batchSum_apply]

theorem varOf_apply (s1 s2 : S32x256.Idx → EReal) (ch : Fin 256) :
    Cert.Chain.varOf s1 s2 (ix1 ch) = momentOf s2 (ix1 ch) - momentOf s1 (ix1 ch) * momentOf s1 (ix1 ch) := rfl

/-! ### The reference-side stretches -/

theorem meanOf_apply (x : S32x256x56x56.Idx → EReal) (ch : Fin 256) :
    Cert.RChain.meanOf x (ix1 ch) = Ideal.div (∑ b : Fin 32, ∑ h : Fin 56, ∑ w : Fin 56, x (ix4 b ch h w)) nC := by
  show Ideal.div (Cert.RChain.sumBHW x (ix1 ch)) nC = _
  rw [Cert.Sums.sumBHW_apply]

theorem outOf_apply (x : S32x256x56x56.Idx → EReal) (inv : S256.Idx → EReal) (sc bi : S32x256.Idx → EReal)
    (b : Fin 32) (ch : Fin 256) (h w : Fin 56) :
    Cert.RChain.outOf x inv sc bi (ix4 b ch h w)
      = (x (ix4 b ch h w) - Cert.RChain.meanOf x (ix1 ch)) * inv (ix1 ch) * sc (ix2 b ch) + bi (ix2 b ch) := by
  show (x (ix4 b ch h w) - Cert.RChain.chanOf (Cert.RChain.meanOf x) (ix4 b ch h w)) * Cert.RChain.chanOf inv (ix4 b ch h w)
      * Cert.RChain.bcOf sc (ix4 b ch h w) + Cert.RChain.bcOf bi (ix4 b ch h w) = _
  rw [chanOf_apply, chanOf_apply, bcOf_apply, bcOf_apply]

/-! ### The two-pass variance -/

/-- The degrees of freedom: 100352 minus the integer 0 converted, which is 100352. -/
private theorem dofOf_apply (i : Cert.ReferenceIdeal.S_.Idx) : Cert.RChain.dofOf i = nC := by
  show Ideal.ofBits .f32 0x47C40000#32 - FloatOps.sitofp (F := Ideal) .f32 (0#32 : BitVec 32) = _
  rw [sitofp_zero, sub_zero]

/-- The guard "degrees of freedom positive" is true: 0 < 100352. -/
private theorem guard_apply (h : (⟨0, ![]⟩ : Shape).BroadcastsInDim S256 ![]) (i : S256.Idx) :
    broadcastInDim S256 ![] h
      (cmpf .ogt Cert.RChain.dofOf (constant (F := Ideal) Cert.ReferenceIdeal.S_ .f32 0x00000000#32)) i = 1#1 := by
  have hpos : (Ideal.ofBits .f32 0x00000000#32 : EReal) < Ideal.ofBits .f32 0x47C40000#32 := by
    rw [ofBits_zero, ofBits_n]; exact EReal.coe_pos.2 (by norm_num)
  show FloatOps.cmpf .ogt (Cert.RChain.dofOf _) (Ideal.ofBits .f32 0x00000000#32) = 1#1
  rw [dofOf_apply, Ideal.cmpf_def]
  show BitVec.ofBool (decide ((Ideal.ofBits .f32 0x00000000#32 : EReal) < Ideal.ofBits .f32 0x47C40000#32)) = 1#1
  rw [decide_eq_true hpos]; rfl

/-- The deviations from the per-channel mean, as the two-pass variance forms them: the sum over batch and positions
    laid along a [1, 256, 1, 1] array, divided by 100352 there, repeated, and subtracted. -/
private def devOf (x : FVec Ideal Cert.ReferenceIdeal.S32x256x56x56 .f32) : FVec Ideal Cert.ReferenceIdeal.S32x256x56x56 .f32 :=
  subf x (broadcastInDim Cert.ReferenceIdeal.S32x256x56x56 ![0, 1, 2, 3]
    Cert.ReferenceIdeal.Facts₀.bcast_S1x256x1x1_S32x256x56x56_0_1_2_3
    (Host.divf
      (broadcastInDim Cert.ReferenceIdeal.S1x256x1x1 ![1] Cert.ReferenceIdeal.Facts₀.bcast_S256_S1x256x1x1_1 (Cert.RChain.sumBHW x))
      (broadcastInDim Cert.ReferenceIdeal.S1x256x1x1 ![] Cert.ReferenceIdeal.Facts₀.bcast_S_S1x256x1x1
        (constant (F := Ideal) Cert.ReferenceIdeal.S_ .f32 0x47C40000#32))))

/-- At (b, ch, h, w) a deviation is the entry minus the mean of channel ch. -/
private theorem devOf_apply (x : S32x256x56x56.Idx → EReal) (b : Fin 32) (ch : Fin 256) (h w : Fin 56) :
    devOf x (ix4 b ch h w)
      = x (ix4 b ch h w) - Ideal.div (∑ b : Fin 32, ∑ h : Fin 56, ∑ w : Fin 56, x (ix4 b ch h w)) nC := by
  unfold devOf
  rw [subf_apply]
  refine congrArg (fun t => x (ix4 b ch h w) - t) ?_
  refine (broadcastInDim_apply _ _ _ (ix4 b ch h w) (ix4 (0 : Fin 1) ch (0 : Fin 1) (0 : Fin 1))
    (fun a => match a with | ⟨0, _⟩ => rfl | ⟨1, _⟩ => rfl | ⟨2, _⟩ => rfl | ⟨3, _⟩ => rfl)).trans ?_
  show Ideal.div (broadcastInDim Cert.ReferenceIdeal.S1x256x1x1 ![1] Cert.ReferenceIdeal.Facts₀.bcast_S256_S1x256x1x1_1
      (Cert.RChain.sumBHW x) (ix4 (0 : Fin 1) ch (0 : Fin 1) (0 : Fin 1))) nC = _
  rw [broadcastInDim_apply _ _ _ (ix4 (0 : Fin 1) ch (0 : Fin 1) (0 : Fin 1)) (ix1 ch) (fun a => match a with | ⟨0, _⟩ => rfl),
    Cert.Sums.sumBHW_apply]

/-- The two-pass variance is a guarded quotient: the sum of the squared deviations over the degrees of freedom where
    these are positive. -/
private theorem varOf_eq (x : FVec Ideal Cert.ReferenceIdeal.S32x256x56x56 .f32) :
    Cert.RChain.varOf x
      = select (broadcastInDim Cert.ReferenceIdeal.S256 ![] Cert.ReferenceIdeal.Facts₀.bcast_S_S256
          (cmpf .ogt Cert.RChain.dofOf (constant (F := Ideal) Cert.ReferenceIdeal.S_ .f32 0x00000000#32)))
        (Host.divf (Cert.RChain.sumBHW (mulf (devOf x) (devOf x)))
          (broadcastInDim Cert.ReferenceIdeal.S256 ![] Cert.ReferenceIdeal.Facts₀.bcast_S_S256 Cert.RChain.dofOf))
        (broadcastInDim Cert.ReferenceIdeal.S256 ![] Cert.ReferenceIdeal.Facts₀.bcast_S_S256
          (id (constant (F := Ideal) Cert.ReferenceIdeal.S_ .f32 0x7FC00000#32))) := rfl

/-- The two-pass variance at a channel: the mean of the squared deviations from the mean. -/
theorem rvarOf_apply (x : S32x256x56x56.Idx → EReal) (ch : Fin 256) :
    Cert.RChain.varOf x (ix1 ch)
      = Ideal.div (∑ b : Fin 32, ∑ h : Fin 56, ∑ w : Fin 56,
            (x (ix4 b ch h w) - Ideal.div (∑ b : Fin 32, ∑ h : Fin 56, ∑ w : Fin 56, x (ix4 b ch h w)) nC)
              * (x (ix4 b ch h w) - Ideal.div (∑ b : Fin 32, ∑ h : Fin 56, ∑ w : Fin 56, x (ix4 b ch h w)) nC)) nC := by
  rw [varOf_eq, select_apply, guard_apply, select_one]
  show Ideal.div (Cert.RChain.sumBHW (mulf (devOf x) (devOf x)) (ix1 ch)) (Cert.RChain.dofOf _) = _
  rw [Cert.Sums.sumBHW_apply, dofOf_apply]
  simp only [mulf_apply, devOf_apply]

end Cert.Layout

end
-- ==== Proof.Reals.lean ====
/-
  Exact arithmetic keeps real numbers real: if every entry of the pooled sums and of the two weight tables is a real
  number, so is every entry of the gating head's result (the softmax's denominators are sums of exponentials, hence
  positive), and a product of real-valued gates with a real-valued parameter table is real-valued.
-/
import proofs.«121786_j24163486007874_1_alg».proof.Proof.Chain
import proofs.«121786_j24163486007874_1_alg».proof.Proof.Gen.KernelIdeal
import proofs.«121786_j24163486007874_1_alg».proof.Proof.Consts
import Idealize.ShloMosaic.Lib.ValueIdx
import Idealize.ShloMosaic.PureOps.Ideal.Laws

noncomputable section

namespace Cert.Reals

open Idealize.ShloMosaic Idealize.SL.Sem Idealize.ShloMosaic.ValueIdx
open Cert.Consts
open Cert.KernelIdeal Cert.Chain

/-! ## Finite sums and maxima of reals -/

/-- A finite sum of reals is a real. -/
private theorem sum_real {ι : Type} (S : Finset ι) (f : ι → EReal) (hf : ∀ k ∈ S, ∃ r : ℝ, f k = (r : EReal)) :
    ∃ r : ℝ, ∑ k ∈ S, f k = (r : EReal) :=
  Finset.sum_induction f (fun x => ∃ r : ℝ, x = (r : EReal))
    (fun a b ⟨r, hr⟩ ⟨q, hq⟩ => ⟨r + q, by rw [hr, hq, EReal.coe_add]⟩) ⟨0, EReal.coe_zero.symm⟩ hf

/-- A nonempty finite sum of positive reals is a positive real. -/
private theorem sum_pos_real {ι : Type} (S : Finset ι) (hS : S.Nonempty) (f : ι → EReal)
    (hf : ∀ k ∈ S, ∃ r : ℝ, 0 < r ∧ f k = (r : EReal)) : ∃ r : ℝ, 0 < r ∧ ∑ k ∈ S, f k = (r : EReal) :=
  Finset.sum_induction_nonempty f (fun x => ∃ r : ℝ, 0 < r ∧ x = (r : EReal))
    (fun a b ⟨r, hr0, hr⟩ ⟨q, hq0, hq⟩ => ⟨r + q, add_pos hr0 hq0, by rw [hr, hq, EReal.coe_add]⟩) hS hf

/-- The maximum of `⊥` and finitely many reals, at least one of them, is a real: it is at least that one, and below `⊤`
    since every term is. -/
private theorem fold_max_real {ι : Type} (S : Finset ι) (hS : S.Nonempty) (f : ι → EReal)
    (hf : ∀ k ∈ S, ∃ r : ℝ, f k = (r : EReal)) : ∃ r : ℝ, S.fold max ⊥ f = (r : EReal) := by
  obtain ⟨k₀, hk₀⟩ := hS
  obtain ⟨r₀, hr₀⟩ := hf k₀ hk₀
  have hlt : S.fold max ⊥ f < ⊤ :=
    (Finset.fold_max_lt _).mpr ⟨bot_lt_top, fun k hk => by obtain ⟨r, hr⟩ := hf k hk; rw [hr]; exact EReal.coe_lt_top r⟩
  have hge : (r₀ : EReal) ≤ S.fold max ⊥ f := (Finset.le_fold_max _).mpr (Or.inr ⟨k₀, hk₀, hr₀.ge⟩)
  exact ⟨_, (EReal.coe_toReal hlt.ne (ne_of_gt (lt_of_lt_of_le (EReal.bot_lt_coe r₀) hge))).symm⟩

/-! ## The operations of the chain, one closure lemma each -/

section Closure

variable {s t : Shape} {φ : FTy}

/-- Every entry is a nonzero real. -/
private def AllNZ (v : s.Idx → EReal) : Prop := ∀ i, ∃ r : ℝ, r ≠ 0 ∧ v i = (r : EReal)

/-- Every entry is a positive real. -/
private def AllPos (v : s.Idx → EReal) : Prop := ∀ i, ∃ r : ℝ, 0 < r ∧ v i = (r : EReal)

private theorem allPos_real {v : s.Idx → EReal} (h : AllPos v) : AllReal v :=
  fun i => let ⟨r, _, hr⟩ := h i; ⟨r, hr⟩

private theorem allPos_nz {v : s.Idx → EReal} (h : AllPos v) : AllNZ v :=
  fun i => let ⟨r, h0, hr⟩ := h i; ⟨r, ne_of_gt h0, hr⟩

/-- A transpose only moves entries. -/
private theorem transpose_real (perm : List (Fin s.rank)) (x : s.Idx → EReal) (h : s.Transposes perm t)
    (hx : AllReal x) : AllReal (transpose t perm x h) := fun j => hx _

/-- A broadcast only repeats entries. -/
private theorem bcast_real (dims : Fin s.rank → Fin t.rank) (h : s.BroadcastsInDim t dims) (x : s.Idx → EReal)
    (hx : AllReal x) : AllReal (broadcastInDim t dims h x) := fun j => hx _

private theorem bcast_nz (dims : Fin s.rank → Fin t.rank) (h : s.BroadcastsInDim t dims) (x : s.Idx → EReal)
    (hx : AllNZ x) : AllNZ (broadcastInDim t dims h x) := fun j => hx _

private theorem bcast_pos (dims : Fin s.rank → Fin t.rank) (h : s.BroadcastsInDim t dims) (x : s.Idx → EReal)
    (hx : AllPos x) : AllPos (broadcastInDim t dims h x) := fun j => hx _

private theorem bcast_bot (dims : Fin s.rank → Fin t.rank) (h : s.BroadcastsInDim t dims) (x : s.Idx → EReal)
    (hx : ∀ i, x i = ⊥) : ∀ j, broadcastInDim t dims h x j = ⊥ := fun j => hx _

/-- A splat constant reads the value of its bit pattern everywhere. -/
private theorem const_real (b : BitVec 32) (hb : ∃ r : ℝ, Ideal.ofBits .f32 b = (r : EReal)) :
    AllReal (constant (F := Ideal) s .f32 b) := fun _ => hb

private theorem const_nz (b : BitVec 32) (hb : ∃ r : ℝ, r ≠ 0 ∧ Ideal.ofBits .f32 b = (r : EReal)) :
    AllNZ (constant (F := Ideal) s .f32 b) := fun _ => hb

private theorem const_bot (b : BitVec 32) (hb : Ideal.ofBits .f32 b = ⊥) :
    ∀ i, constant (F := Ideal) s .f32 b i = ⊥ := fun _ => hb

/-- An entrywise product of reals. -/
private theorem mulf_real (a b : FVec Ideal s φ) (ha : AllReal a) (hb : AllReal b) : AllReal (mulf a b) := fun i => by
  obtain ⟨r, hr⟩ := ha i
  obtain ⟨q, hq⟩ := hb i
  exact ⟨r * q, by rw [mulf_apply, hr, hq, EReal.coe_mul]⟩

/-- An entrywise difference of reals. -/
private theorem subf_real (a b : FVec Ideal s φ) (ha : AllReal a) (hb : AllReal b) : AllReal (subf a b) := fun i => by
  obtain ⟨r, hr⟩ := ha i
  obtain ⟨q, hq⟩ := hb i
  exact ⟨r - q, by rw [subf_apply, hr, hq, EReal.coe_sub]⟩

/-- A select picks, at each index, one of two real entries. -/
private theorem select_real (c : IVec s 1) (a b : s.Idx → EReal) (ha : AllReal a) (hb : AllReal b) :
    AllReal (select c a b) := fun i => by
  by_cases hc : c i = 1#1
  · rw [select_apply, hc, select_one]; exact ha i
  · rw [select_apply, eq_zero_of_ne_one hc, select_zero]; exact hb i

/-- The maximum with `⊥` changes nothing. -/
private theorem maximumf_bot_real (a b : FVec Ideal s φ) (ha : ∀ i, a i = ⊥) (hb : AllReal b) :
    AllReal (maximumf a b) := fun i => by
  rw [maximumf_apply, ha i, max_eq_right bot_le]; exact hb i

/-- A real divided by a nonzero real is a real: the product with the reciprocal. -/
private theorem hostDivf_real (a b : FVec Ideal s φ) (ha : AllReal a) (hb : AllNZ b) : AllReal (Host.divf a b) := fun i => by
  obtain ⟨r, hr⟩ := ha i
  obtain ⟨q, hq0, hq⟩ := hb i
  refine ⟨r * (1 / q), ?_⟩
  show Ideal.div (a i) (b i) = _
  rw [hr, hq, Ideal.div_coe hq0, EReal.coe_mul]

/-- The exponential of a real is a positive real. -/
private theorem hostExp_pos (a : FVec Ideal s φ) (ha : AllReal a) : AllPos (Host.exp a) := fun i => by
  obtain ⟨r, hr⟩ := ha i
  refine ⟨Real.exp r, Real.exp_pos r, ?_⟩
  show Ideal.exp (a i) = _
  rw [hr, Ideal.exp_coe]

/-- A host product at an index is a finite sum of products of entries. -/
private theorem dot_real {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := fun j => by
  show ∃ x : ℝ, FloatOps.dotGeneral d prec .single l r j = (x : EReal)
  rw [Ideal.dotGeneral_apply]
  refine sum_real _ _ fun k _ => ?_
  obtain ⟨x, hx⟩ := hl (d.lhsIdx j k)
  obtain ⟨y, hy⟩ := hr (d.rhsIdx j k)
  exact ⟨x * y, by rw [hx, hy, EReal.coe_mul]⟩

/-- The maximum over one nonempty axis, started from `⊥`, of a real-valued array is real-valued. -/
private theorem hostReduceMax_real {u : Shape} {a : Fin s.rank} (x : FVec Ideal s φ) (init : u.Idx → Ideal φ)
    (h' : s.ReducesTo [a] t) (h : s.Reduces [a] t) (hu : 0 < u.numel) (hpos : 0 < s.size a) (hx : AllReal x)
    (hinit : ∀ i, init i = ⊥) : AllReal (Host.reduce (FloatOps.maximumf (F := Ideal) (φ := φ)) x init h' hu) := fun j => by
  rw [Host.reduce_eq_fold_single (FloatOps.maximumf (F := Ideal) (φ := φ)) x init h' h hu j, hinit]
  exact fold_max_real _ ⟨⟨0, hpos⟩, Finset.mem_univ _⟩ _ fun k _ => hx _

/-- The sum over one nonempty axis, started from `0`, of an array of positive reals is an array of positive reals. -/
private theorem hostReduceAdd_pos {u : Shape} {a : Fin s.rank} (x : FVec Ideal s φ) (init : u.Idx → Ideal φ)
    (h' : s.ReducesTo [a] t) (h : s.Reduces [a] t) (hu : 0 < u.numel) (hpos : 0 < s.size a) (hx : AllPos x)
    (hinit : ∀ i, init i = 0) : AllPos (Host.reduceAdd x init h' hu) := fun j => by
  show ∃ r : ℝ, 0 < r ∧ Ideal.hostReduceAdd h' x (init (Shape.Idx.first hu)) j = (r : EReal)
  rw [Ideal.hostReduceAdd_single h' h, hinit, zero_add]
  exact sum_pos_real _ ⟨⟨0, hpos⟩, Finset.mem_univ _⟩ _ fun k _ => hx _

end Closure

/-! ## The constants of the chain -/

private theorem hw_nz : ∃ r : ℝ, r ≠ 0 ∧ Ideal.ofBits .f32 0x45440000#32 = (r : EReal) :=
  ⟨3136, by norm_num, ofBits_hw⟩

private theorem temp_nz : ∃ r : ℝ, r ≠ 0 ∧ Ideal.ofBits .f32 0x41F00000#32 = (r : EReal) :=
  ⟨30, by norm_num, ofBits_temp⟩

private theorem zero_real : ∃ r : ℝ, Ideal.ofBits .f32 0x00000000#32 = (r : EReal) :=
  ⟨0, by rw [ofBits_zero, EReal.coe_zero]⟩

/-! ## The three stretches -/

/-- The pooled means of real sums are real. -/
theorem pooledOf_real (s : S32x256.Idx → EReal) (hs : AllReal s) : AllReal (pooledOf s) := by
  unfold pooledOf
  exact hostDivf_real _ _ hs (bcast_nz _ _ _ (const_nz _ hw_nz))

/-- The leaky ReLU of a real-valued array. -/
private theorem leaky_real {s : Shape} (h : FVec Ideal s .f32) (z c : FVec Ideal s .f32) (hh : AllReal h) (hc : AllReal c) :
    AllReal (select (cmpf .ogt h z) h (mulf c h)) :=
  select_real _ _ _ hh (mulf_real _ _ hc hh)

/-- The exponentials of a real-valued array less its row maxima are positive reals. -/
private theorem expShift_pos (x : FVec Ideal S32x3 .f32) (hx : AllReal x) :
    AllPos (Host.exp (subf x
      (broadcastInDim S32x3 ![0, 1] Facts₀.bcast_S32x1_S32x3_0_1 (broadcastInDim S32x1 ![0] Facts₀.bcast_S32_S32x1_0
        (maximumf (broadcastInDim S32 ![] Facts₀.bcast_S_S32 (constant (F := Ideal) S_ .f32 0xFF800000#32))
          (Host.reduce FloatOps.maximumf x (constant (F := Ideal) S_ .f32 0xFF800000#32) Facts₀.reducesTo_S32x3_S32_d1
            Facts₀.h_S_)))))) := by
  refine hostExp_pos _ (subf_real _ _ hx (bcast_real _ _ _ (bcast_real _ _ _ (maximumf_bot_real _ _ ?_ ?_))))
  · exact bcast_bot _ _ _ (const_bot _ ofBits_neginf)
  · exact hostReduceMax_real x _ _ (by decide) _ (by decide) hx (const_bot _ ofBits_neginf)

/-- Positive reals divided by their (positive) row sums are reals. -/
private theorem normalize_real (e : FVec Ideal S32x3 .f32) (he : AllPos e) :
    AllReal (Host.divf e
      (broadcastInDim S32x3 ![0, 1] Facts₀.bcast_S32x1_S32x3_0_1 (broadcastInDim S32x1 ![0] Facts₀.bcast_S32_S32x1_0
        (Host.reduceAdd e (constant (F := Ideal) S_ .f32 0x00000000#32) Facts₀.reducesTo_S32x3_S32_d1 Facts₀.h_S_)))) := by
  refine hostDivf_real _ _ (allPos_real he) (allPos_nz (bcast_pos _ _ _ (bcast_pos _ _ _ ?_)))
  exact hostReduceAdd_pos e _ _ (by decide) _ (by decide) he fun _ => ofBits_zero

/-- The gating head of real inputs is real-valued. -/
theorem gatesOf_real (p : S32x256.Idx → EReal) (w1 : S25x256.Idx → EReal) (w2 : S3x25.Idx → EReal)
    (hp : AllReal p) (hw1 : AllReal w1) (hw2 : AllReal w2) : AllReal (gatesOf p w1 w2) := by
  unfold gatesOf
  refine normalize_real _ (expShift_pos _ (hostDivf_real _ _ ?_ (bcast_nz _ _ _ (const_nz _ temp_nz))))
  refine dot_real _ _ _ _ (leaky_real _ _ _ ?_ (bcast_real _ _ _ (const_real _ ofBits_slope))) (transpose_real _ _ _ hw2)
  exact dot_real _ _ _ _ hp (transpose_real _ _ _ hw1)

/-- A product of real-valued gates with a real-valued parameter table is real-valued. -/
theorem mixOf_real (g : S32x3.Idx → EReal) (P : S3x256.Idx → EReal) (hg : AllReal g) (hP : AllReal P) :
    AllReal (mixOf g P) := by
  unfold mixOf
  exact dot_real _ _ _ _ hg hP

end Cert.Reals

end
-- ==== Proof.Bridge.lean ====
/-
  The law that joins the two programs' outputs.  With every input real-valued, at each (b, c, h, w):
      x · (s · i) + (d − M · (s · i))  =  ((x − M) · i) · s + d,
  where s = (gates · γ)[b, c], d = (gates · β)[b, c], M the channel mean and i = 1 / √(var + ε) — provided the kernel's
  variance E[x²] − M² and the reference's two-pass variance E[(x − M)²] are the same real number, which they are.
  Finiteness is used throughout: on the extended reals neither distributivity nor cancellation holds at infinities.
-/
import proofs.«121786_j24163486007874_1_alg».proof.Proof.Chain
import proofs.«121786_j24163486007874_1_alg».proof.Proof.RChain
import proofs.«121786_j24163486007874_1_alg».proof.Proof.Sums
import proofs.«121786_j24163486007874_1_alg».proof.Proof.Layout
import proofs.«121786_j24163486007874_1_alg».proof.Proof.Reals
import proofs.«121786_j24163486007874_1_alg».proof.Proof.Consts
import proofs.«121786_j24163486007874_1_alg».proof.Proof.Gen.KernelIdeal
import proofs.«121786_j24163486007874_1_alg».proof.Proof.Gen.ReferenceIdeal
import Idealize.ShloMosaic.Lib.ValueIdx
import Idealize.ShloMosaic.PureOps.Ideal.Laws

noncomputable section

namespace Cert.Bridge

open Idealize.ShloMosaic Idealize.SL.Sem Idealize.ShloMosaic.ValueIdx
open Cert.Consts
open Cert.KernelIdeal Cert.Chain

/-- The gates both programs compute: the gating head of the pooled position sums. -/
def gOf (x : S32x256x56x56.Idx → EReal) (w1 : S25x256.Idx → EReal) (w2 : S3x25.Idx → EReal) : S32x3.Idx → EReal :=
  gatesOf (pooledOf (Cert.RChain.sumHW x)) w1 w2

open scoped BigOperators

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the squared deviations from any number `M`, expanded: over the 32 · 56 · 56 = 100352 entries,
    `Σ (f − M)² = Σ f² − 2 M Σ f + 100352 · M²`. -/
private theorem sq_dev_sum (f : Fin 32 → Fin 56 → Fin 56 → ℝ) (M : ℝ) :
    ∑ b : Fin 32, ∑ h : Fin 56, ∑ w : Fin 56, (f b h w - M) * (f b h w - M)
      = (∑ b : Fin 32, ∑ h : Fin 56, ∑ w : Fin 56, f b h w * f b h w)
          - 2 * M * (∑ b : Fin 32, ∑ h : Fin 56, ∑ w : Fin 56, f b h w) + 100352 * (M * M) := by
  have e : ∀ b h w, (f b h w - M) * (f b h w - M) = f b h w * f b h w - 2 * M * f b h w + M * M := by
    intro b h w; ring
  simp only [e, Finset.sum_add_distrib, Finset.sum_sub_distrib, ← Finset.mul_sum, Finset.sum_const, Finset.card_univ,
    Fintype.card_fin, nsmul_eq_mul]
  push_cast
  ring

/-- With `M` the mean, the mean of the squared deviations is the second moment minus the squared mean. -/
private theorem var_eq (f : Fin 32 → Fin 56 → Fin 56 → ℝ) :
    (∑ b : Fin 32, ∑ h : Fin 56, ∑ w : Fin 56,
        (f b h w - (∑ b : Fin 32, ∑ h : Fin 56, ∑ w : Fin 56, f b h w) / 100352)
          * (f b h w - (∑ b : Fin 32, ∑ h : Fin 56, ∑ w : Fin 56, f b h w) / 100352)) / 100352
      = (∑ b : Fin 32, ∑ h : Fin 56, ∑ w : Fin 56, f b h w * f b h w) / 100352
          - (∑ b : Fin 32, ∑ h : Fin 56, ∑ w : Fin 56, f b h w) / 100352
            * ((∑ b : Fin 32, ∑ h : Fin 56, ∑ w : Fin 56, f b h w) / 100352) := by
  rw [sq_dev_sum]
  field_simp
  ring

/-- A mean of squares is not negative. -/
private theorem var_nonneg (f : Fin 32 → Fin 56 → Fin 56 → ℝ) (M : ℝ) :
    0 ≤ (∑ b : Fin 32, ∑ h : Fin 56, ∑ w : Fin 56, (f b h w - M) * (f b h w - M)) / 100352 := by
  apply div_nonneg _ (by norm_num)
  exact Finset.sum_nonneg fun b _ => Finset.sum_nonneg fun h _ => Finset.sum_nonneg fun w _ => mul_self_nonneg _

/-- Dividing a real by the programs' constant 100352. -/
private theorem div_n (a : ℝ) : Ideal.div (a : EReal) Cert.Layout.nC = ((a / 100352 : ℝ) : EReal) := by
  rw [show Cert.Layout.nC = ((100352 : ℝ) : EReal) from ofBits_n, Ideal.div_coe (by norm_num), ← EReal.coe_mul]
  congr 1
  ring

/-- The kernel's affine form of the output equals the reference's normalise-then-mix form, entry by entry, when every
    input is real-valued and `s2` holds the per-(batch, channel) sums of squares. -/
theorem out_bridge (x : S32x256x56x56.Idx → EReal) (w1 : S25x256.Idx → EReal) (w2 : S3x25.Idx → EReal)
    (γ β : S3x256.Idx → EReal) (s2 : S32x256.Idx → EReal)
    (hx : AllReal x) (hw1 : AllReal w1) (hw2 : AllReal w2) (hγ : AllReal γ) (hβ : AllReal β)
    (hs2 : ∀ (b : Fin 32) (ch : Fin 256), s2 (ix2 b ch) = ∑ h : Fin 56, ∑ w : Fin 56, x (ix4 b ch h w) * x (ix4 b ch h w))
    (b : Fin 32) (ch : Fin 256) (h w : Fin 56) :
    x (ix4 b ch h w) * mulOf (gOf x w1 w2) γ (invStdOf (Cert.Chain.varOf (Cert.RChain.sumHW x) s2)) (ix2 b ch)
        + offOf (gOf x w1 w2) β (momentOf (Cert.RChain.sumHW x))
            (mulOf (gOf x w1 w2) γ (invStdOf (Cert.Chain.varOf (Cert.RChain.sumHW x) s2))) (ix2 b ch)
      = Cert.RChain.outOf x (invStdOf (Cert.RChain.varOf x)) (mixOf (gOf x w1 w2) γ) (mixOf (gOf x w1 w2) β) (ix4 b ch h w) := by
  have hx' : ∀ i, ∃ r : ℝ, x i = (r : EReal) := hx
  choose xr hxr using hx'
  -- the position sums are real numbers, hence so are the gates and the two mixed parameters at (b, ch)
  have hSum : ∀ (b' : Fin 32) (c' : Fin 256),
      Cert.RChain.sumHW x (ix2 b' c') = ((∑ h' : Fin 56, ∑ w' : Fin 56, xr (ix4 b' c' h' w') : ℝ) : EReal) := by
    intro b' c'
    rw [Cert.Sums.sumHW_apply]
    simp only [hxr, coe_sum]
  have hS : AllReal (Cert.RChain.sumHW x) := by
    intro j
    rw [eq_ix2 j]
    exact ⟨_, hSum _ _⟩
  have hg : AllReal (gOf x w1 w2) :=
    Cert.Reals.gatesOf_real _ w1 w2 (Cert.Reals.pooledOf_real _ hS) hw1 hw2
  obtain ⟨s, hs⟩ := Cert.Reals.mixOf_real _ γ hg hγ (ix2 b ch)
  obtain ⟨d, hd⟩ := Cert.Reals.mixOf_real _ β hg hβ (ix2 b ch)
  -- the channel's entries as a real family, its mean M, and the two variances as one real V
  let f : Fin 32 → Fin 56 → Fin 56 → ℝ := fun b' h' w' => xr (ix4 b' ch h' w')
  let M : ℝ := (∑ b' : Fin 32, ∑ h' : Fin 56, ∑ w' : Fin 56, f b' h' w') / 100352
  let V : ℝ := (∑ b' : Fin 32, ∑ h' : Fin 56, ∑ w' : Fin 56, (f b' h' w' - M) * (f b' h' w' - M)) / 100352
  have hMk : momentOf (Cert.RChain.sumHW x) (ix1 ch) = ((M : ℝ) : EReal) := by
    rw [Cert.Layout.momentOf_apply]
    simp only [hSum, ← coe_sum]
    rw [div_n]
  have hE2 : momentOf s2 (ix1 ch)
      = (((∑ b' : Fin 32, ∑ h' : Fin 56, ∑ w' : Fin 56, f b' h' w' * f b' h' w') / 100352 : ℝ) : EReal) := by
    rw [Cert.Layout.momentOf_apply]
    simp only [hs2, hxr, ← EReal.coe_mul, ← coe_sum]
    rw [div_n]
  have hdivM : Ideal.div (∑ b' : Fin 32, ∑ h' : Fin 56, ∑ w' : Fin 56, x (ix4 b' ch h' w')) Cert.Layout.nC
      = ((M : ℝ) : EReal) := by
    simp only [hxr, ← coe_sum]
    rw [div_n]
  have hMr : Cert.RChain.meanOf x (ix1 ch) = ((M : ℝ) : EReal) := by
    rw [Cert.Layout.meanOf_apply, hdivM]
  have hVk : Cert.Chain.varOf (Cert.RChain.sumHW x) s2 (ix1 ch) = ((V : ℝ) : EReal) := by
    rw [Cert.Layout.varOf_apply, hE2, hMk, ← EReal.coe_mul, ← EReal.coe_sub]
    exact congrArg _ (var_eq f).symm
  have hVr : Cert.RChain.varOf x (ix1 ch) = ((V : ℝ) : EReal) := by
    rw [Cert.Layout.rvarOf_apply]
    simp only [hdivM]
    simp only [hxr, ← EReal.coe_sub, ← EReal.coe_mul, ← coe_sum]
    rw [div_n]
  have hV0 : 0 ≤ V := var_nonneg f M
  -- ε is a positive real, so V + ε > 0 and both reciprocal deviations are the real 1 / √(V + ε)
  obtain ⟨e, he0, he⟩ := ofBits_eps
  have hpos : 0 < V + e := by linarith
  have hinv : ∀ v : S256.Idx → EReal, v (ix1 ch) = ((V : ℝ) : EReal) →
      invStdOf v (ix1 ch) = (((Real.sqrt (V + e))⁻¹ : ℝ) : EReal) := by
    intro v hv
    rw [Cert.Layout.invStdOf_apply, hv, show Cert.Layout.epsC = ((e : ℝ) : EReal) from he, ← EReal.coe_add,
      Ideal.rsqrt_coe, if_neg (not_lt.mpr hpos.le), if_neg hpos.ne']
  have hik := hinv _ hVk
  have hir := hinv _ hVr
  -- both sides as one real expression
  rw [Cert.Layout.offOf_apply, Cert.Layout.mulOf_apply, Cert.Layout.outOf_apply, hMk, hMr, hik, hir, hs, hd, hxr]
  simp only [← EReal.coe_mul, ← EReal.coe_sub, ← EReal.coe_add]
  congr 1
  ring

end Cert.Bridge

end
-- ==== Proof.KValue.lean ====
/-
  The kernel program's two results as functions of the launched arrays.  The gates array is the gating head of the
  pooled position sums (the statistics region's sums are the position sums).  Under finiteness of the inputs the output
  array is the reference's normalise-then-mix expression: the affine region computes x · a + d entrywise, the host
  stretch made a and d from the two statistics arrays, and the joining law turns that into the reference's form.
-/
import proofs.«121786_j24163486007874_1_alg».proof.Proof.KNames
import proofs.«121786_j24163486007874_1_alg».proof.Proof.KStats
import proofs.«121786_j24163486007874_1_alg».proof.Proof.KAffine
import proofs.«121786_j24163486007874_1_alg».proof.Proof.KHost
import proofs.«121786_j24163486007874_1_alg».proof.Proof.Sums
import proofs.«121786_j24163486007874_1_alg».proof.Proof.Bridge
import proofs.«121786_j24163486007874_1_alg».proof.Proof.Consts
import Idealize.ShloMosaic.Lib.ValueIdx

noncomputable section

namespace Cert.KValue

open Idealize.ShloMosaic Idealize.ShloMosaic.TcCoe Idealize.SL.Sem Idealize.ShloMosaic.ValueIdx
open Cert.KernelIdeal Cert.KernelIdeal.Gen Cert.KNames

variable (m : (ℓ : Loc nD τ sig) → Buf (Elt Ideal) ℓ) (ρ : Dev nD → PrngReg)
open Cert.Chain Cert.Consts Cert.KHost

/-- The statistics region's sums, as a [32, 256] array, are the host's position sums of the launched activations. -/
theorem s1Mat_eq (c : Dev nD) : s1Mat m ρ c = Cert.RChain.sumHW (xArr m c) := by
  funext j
  obtain ⟨b, ch, rfl⟩ : ∃ (b : Fin 32) (ch : Fin 256), j = ix2 b ch := ⟨j 0, j 1, eq_ix2 j⟩
  rw [Cert.Sums.sumHW_apply]
  exact Cert.KStats.stats_sum m ρ c b ch

/-- Its sums of squares, entry by entry. -/
theorem s2Mat_apply (c : Dev nD) (b : Fin 32) (ch : Fin 256) :
    s2Mat m ρ c (ix2 b ch) = ∑ h : Fin 56, ∑ w : Fin 56, xArr m c (ix4 b ch h w) * xArr m c (ix4 b ch h w) :=
  Cert.KStats.stats_sumsq m ρ c b ch

/-- The gates array at the end of the run: the gating head of the pooled position sums. -/
theorem gates_value (c : Dev nD) : gatesArr m ρ c = Cert.Bridge.gOf (xArr m c) (w1Arr m c) (w2Arr m c) := by
  rw [gates_eq]
  unfold gatesK Cert.Bridge.gOf
  rw [s1Mat_eq]

/-- The output array at the end of the run, when every input is real-valued: the reference's expression. -/
theorem out_value (c : Dev nD) (hx : AllReal (xArr m c)) (hw1 : AllReal (w1Arr m c)) (hw2 : AllReal (w2Arr m c))
    (hγ : AllReal (gArr m c)) (hβ : AllReal (bArr m c)) :
    outArr m ρ c
      = Cert.RChain.outOf (xArr m c) (invStdOf (Cert.RChain.varOf (xArr m c)))
          (mixOf (Cert.Bridge.gOf (xArr m c) (w1Arr m c) (w2Arr m c)) (gArr m c))
          (mixOf (Cert.Bridge.gOf (xArr m c) (w1Arr m c) (w2Arr m c)) (bArr m c)) := by
  funext i
  obtain ⟨b, ch, h, w, rfl⟩ : ∃ (b : Fin 32) (ch : Fin 256) (h w : Fin 56), i = ix4 b ch h w :=
    ⟨i 0, i 1, i 2, i 3, eq_ix4 i⟩
  rw [Cert.KAffine.affine_out, x4_eq, a4_apply, d4_apply]
  have hg : gatesK m ρ c = Cert.Bridge.gOf (xArr m c) (w1Arr m c) (w2Arr m c) := by
    unfold gatesK Cert.Bridge.gOf
    rw [s1Mat_eq]
  rw [hg, s1Mat_eq]
  exact Cert.Bridge.out_bridge (xArr m c) (w1Arr m c) (w2Arr m c) (gArr m c) (bArr m c) (s2Mat m ρ c)
    hx hw1 hw2 hγ hβ (s2Mat_apply m ρ c) b ch h w

end Cert.KValue

end
-- ==== Proof.RRun.lean ====
/-
  The reference program's run read back: @main is a straight line of host operations (its three outlined
  functions opened at their calls), so every weakly fair execution ends with each buffer at the operations' composed
  value of the launched arrays.  The two results are named through the shared arithmetic (Chain, RChain): the gates are
  the gating head of the pooled position sums, and the output is the normalise-then-mix expression with the two-pass
  variance.
-/
import proofs.«121786_j24163486007874_1_alg».proof.Proof.Gen.ReferenceIdeal
import proofs.«121786_j24163486007874_1_alg».proof.Proof.Gen.KernelIdeal
import proofs.«121786_j24163486007874_1_alg».proof.Proof.Chain
import proofs.«121786_j24163486007874_1_alg».proof.Proof.RChain
import Idealize.ShloMosaic.Lib.StableHlo.Run

noncomputable section

namespace Cert.RRun

open Idealize.ShloMosaic Idealize.ShloMosaic.TcCoe Idealize.SL.Sem Idealize.ShloMosaic.StableHlo
open Cert.ReferenceIdeal Cert.ReferenceIdeal.Gen

section Line

variable {F : FTy → Type} [FloatOps F]

/-- The first stretch of @main, 33 operations: the position sums, the pooled means, and the gating head down to the
    gates (`_where` opened at its call: its one select). -/
abbrev opsA : List (HloOp τ sig (Elt F)) :=
  [ StableHlo.nullary main_cst (constant S_ .f32 0x00000000#32),
    StableHlo.binary main_arg0 main_cst main_v0 ((fun x v => Host.reduceAdd x v reducesTo_S32x256x56x56_S32x256_d2_3 h_S_) : (⟨S32x256x56x56, .f32⟩ : BufTy).Contents (Elt F) → (⟨S_, .f32⟩ : BufTy).Contents (Elt F) → (⟨S32x256, .f32⟩ : BufTy).Contents (Elt F)),
    StableHlo.nullary main_cst_0 (constant S_ .f32 0x45440000#32),
    StableHlo.unary main_cst_0 main_v1 (broadcastInDim S32x256 ![] bcast_S_S32x256 : (⟨S_, .f32⟩ : BufTy).Contents (Elt F) → (⟨S32x256, .f32⟩ : BufTy).Contents (Elt F)),
    StableHlo.binary main_v0 main_v1 main_v2 (Host.divf : (⟨S32x256, .f32⟩ : BufTy).Contents (Elt F) → (⟨S32x256, .f32⟩ : BufTy).Contents (Elt F) → (⟨S32x256, .f32⟩ : BufTy).Contents (Elt F)),
    StableHlo.unary main_arg1 main_v3 ((transpose S256x25 [1, 0] · transposes_S25x256_S256x25_1_0) : (⟨S25x256, .f32⟩ : BufTy).Contents (Elt F) → (⟨S256x25, .f32⟩ : BufTy).Contents (Elt F)),
    StableHlo.binary main_v2 main_v3 main_v4 ((fun l r => Host.dotGeneral dot_S32x256_S256x25_S32x25_1_0_0_1_n_n none l r) : (⟨S32x256, .f32⟩ : BufTy).Contents (Elt F) → (⟨S256x25, .f32⟩ : BufTy).Contents (Elt F) → (⟨S32x25, .f32⟩ : BufTy).Contents (Elt F)),
    StableHlo.nullary main_cst_1 (constant S_ .f32 0x00000000#32),
    StableHlo.unary main_cst_1 main_v5 (broadcastInDim S32x25 ![] bcast_S_S32x25 : (⟨S_, .f32⟩ : BufTy).Contents (Elt F) → (⟨S32x25, .f32⟩ : BufTy).Contents (Elt F)),
    StableHlo.binary main_v4 main_v5 main_v6 (cmpf .ogt : (⟨S32x25, .f32⟩ : BufTy).Contents (Elt F) → (⟨S32x25, .f32⟩ : BufTy).Contents (Elt F) → (⟨S32x25, .i1⟩ : BufTy).Contents (Elt F)),
    StableHlo.nullary main_cst_2 (constant S_ .f32 0x3C23D70A#32),
    StableHlo.unary main_cst_2 main_v7 (broadcastInDim S32x25 ![] bcast_S_S32x25 : (⟨S_, .f32⟩ : BufTy).Contents (Elt F) → (⟨S32x25, .f32⟩ : BufTy).Contents (Elt F)),
    StableHlo.binary main_v7 main_v4 main_v8 (mulf : (⟨S32x25, .f32⟩ : BufTy).Contents (Elt F) → (⟨S32x25, .f32⟩ : BufTy).Contents (Elt F) → (⟨S32x25, .f32⟩ : BufTy).Contents (Elt F)),
    StableHlo.TRef.ternary (.of main_v6) (.of main_v4) (.of main_v8) main_call0.v0 select,
    StableHlo.unary main_arg2 main_v10 ((transpose S25x3 [1, 0] · transposes_S3x25_S25x3_1_0) : (⟨S3x25, .f32⟩ : BufTy).Contents (Elt F) → (⟨S25x3, .f32⟩ : BufTy).Contents (Elt F)),
    StableHlo.binary main_v9 main_v10 main_v11 ((fun l r => Host.dotGeneral dot_S32x25_S25x3_S32x3_1_0_0_1_n_n none l r) : (⟨S32x25, .f32⟩ : BufTy).Contents (Elt F) → (⟨S25x3, .f32⟩ : BufTy).Contents (Elt F) → (⟨S32x3, .f32⟩ : BufTy).Contents (Elt F)),
    StableHlo.nullary main_cst_3 (constant S_ .f32 0x41F00000#32),
    StableHlo.unary main_cst_3 main_v12 (broadcastInDim S32x3 ![] bcast_S_S32x3 : (⟨S_, .f32⟩ : BufTy).Contents (Elt F) → (⟨S32x3, .f32⟩ : BufTy).Contents (Elt F)),
    StableHlo.binary main_v11 main_v12 main_v13 (Host.divf : (⟨S32x3, .f32⟩ : BufTy).Contents (Elt F) → (⟨S32x3, .f32⟩ : BufTy).Contents (Elt F) → (⟨S32x3, .f32⟩ : BufTy).Contents (Elt F)),
    StableHlo.nullary main_cst_4 (constant S_ .f32 0xFF800000#32),
    StableHlo.binary main_v13 main_cst_4 main_v14 ((fun x v => Host.reduce FloatOps.maximumf x v reducesTo_S32x3_S32_d1 h_S_) : (⟨S32x3, .f32⟩ : BufTy).Contents (Elt F) → (⟨S_, .f32⟩ : BufTy).Contents (Elt F) → (⟨S32, .f32⟩ : BufTy).Contents (Elt F)),
    StableHlo.nullary main_cst_5 (constant S_ .f32 0xFF800000#32),
    StableHlo.unary main_cst_5 main_v15 (broadcastInDim S32 ![] bcast_S_S32 : (⟨S_, .f32⟩ : BufTy).Contents (Elt F) → (⟨S32, .f32⟩ : BufTy).Contents (Elt F)),
    StableHlo.binary main_v15 main_v14 main_v16 (maximumf : (⟨S32, .f32⟩ : BufTy).Contents (Elt F) → (⟨S32, .f32⟩ : BufTy).Contents (Elt F) → (⟨S32, .f32⟩ : BufTy).Contents (Elt F)),
    StableHlo.unary main_v16 main_v17 (broadcastInDim S32x1 ![0] bcast_S32_S32x1_0 : (⟨S32, .f32⟩ : BufTy).Contents (Elt F) → (⟨S32x1, .f32⟩ : BufTy).Contents (Elt F)),
    StableHlo.unary main_v17 main_v18 (broadcastInDim S32x3 ![0, 1] bcast_S32x1_S32x3_0_1 : (⟨S32x1, .f32⟩ : BufTy).Contents (Elt F) → (⟨S32x3, .f32⟩ : BufTy).Contents (Elt F)),
    StableHlo.binary main_v13 main_v18 main_v19 (subf : (⟨S32x3, .f32⟩ : BufTy).Contents (Elt F) → (⟨S32x3, .f32⟩ : BufTy).Contents (Elt F) → (⟨S32x3, .f32⟩ : BufTy).Contents (Elt F)),
    StableHlo.unary main_v19 main_v20 (Host.exp : (⟨S32x3, .f32⟩ : BufTy).Contents (Elt F) → (⟨S32x3, .f32⟩ : BufTy).Contents (Elt F)),
    StableHlo.nullary main_cst_6 (constant S_ .f32 0x00000000#32),
    StableHlo.binary main_v20 main_cst_6 main_v21 ((fun x v => Host.reduceAdd x v reducesTo_S32x3_S32_d1 h_S_) : (⟨S32x3, .f32⟩ : BufTy).Contents (Elt F) → (⟨S_, .f32⟩ : BufTy).Contents (Elt F) → (⟨S32, .f32⟩ : BufTy).Contents (Elt F)),
    StableHlo.unary main_v21 main_v22 (broadcastInDim S32x1 ![0] bcast_S32_S32x1_0 : (⟨S32, .f32⟩ : BufTy).Contents (Elt F) → (⟨S32x1, .f32⟩ : BufTy).Contents (Elt F)),
    StableHlo.unary main_v22 main_v23 (broadcastInDim S32x3 ![0, 1] bcast_S32x1_S32x3_0_1 : (⟨S32x1, .f32⟩ : BufTy).Contents (Elt F) → (⟨S32x3, .f32⟩ : BufTy).Contents (Elt F)),
    StableHlo.binary main_v20 main_v23 main_v24 (Host.divf : (⟨S32x3, .f32⟩ : BufTy).Contents (Elt F) → (⟨S32x3, .f32⟩ : BufTy).Contents (Elt F) → (⟨S32x3, .f32⟩ : BufTy).Contents (Elt F)) ]

/-- The second stretch, 28 operations: the per-channel mean, the integer zero, and `_var` opened at its call (its
    nineteen operations, then `_where_0`'s three). -/
abbrev opsB : List (HloOp τ sig (Elt F)) :=
  [ StableHlo.nullary main_cst_7 (constant S_ .f32 0x00000000#32),
    StableHlo.binary main_arg0 main_cst_7 main_v25 ((fun x v => Host.reduceAdd x v reducesTo_S32x256x56x56_S256_d0_2_3 h_S_) : (⟨S32x256x56x56, .f32⟩ : BufTy).Contents (Elt F) → (⟨S_, .f32⟩ : BufTy).Contents (Elt F) → (⟨S256, .f32⟩ : BufTy).Contents (Elt F)),
    StableHlo.nullary main_cst_8 (constant S_ .f32 0x47C40000#32),
    StableHlo.unary main_cst_8 main_v26 (broadcastInDim S256 ![] bcast_S_S256 : (⟨S_, .f32⟩ : BufTy).Contents (Elt F) → (⟨S256, .f32⟩ : BufTy).Contents (Elt F)),
    StableHlo.binary main_v25 main_v26 main_v27 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call1.cst (constant S_ .f32 0x00000000#32),
    StableHlo.TRef.binary (.of main_arg0) main_call1.cst main_call1.v0 (fun x v => Host.reduceAdd x v reducesTo_S32x256x56x56_S256_d0_2_3 h_S_),
    StableHlo.TRef.unary main_call1.v0 main_call1.v1 (broadcastInDim S1x256x1x1 ![1] bcast_S256_S1x256x1x1_1),
    StableHlo.TRef.nullary main_call1.cst_0 (constant S_ .f32 0x47C40000#32),
    StableHlo.TRef.unary main_call1.cst_0 main_call1.v2 (broadcastInDim S1x256x1x1 ![] bcast_S_S1x256x1x1),
    StableHlo.TRef.binary main_call1.v1 main_call1.v2 main_call1.v3 Host.divf,
    StableHlo.TRef.unary main_call1.v3 main_call1.v4 (broadcastInDim S32x256x56x56 ![0, 1, 2, 3] bcast_S1x256x1x1_S32x256x56x56_0_1_2_3),
    StableHlo.TRef.binary (.of main_arg0) main_call1.v4 main_call1.v5 subf,
    StableHlo.TRef.binary main_call1.v5 main_call1.v5 main_call1.v6 mulf,
    StableHlo.TRef.unary (.of main_c) main_call1.v7 (sitofp .f32),
    StableHlo.TRef.nullary main_call1.cst_1 (constant S_ .f32 0x47C40000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S32x256x56x56_S256_d0_2_3 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b) ]

/-- The last stretch, 18 operations: centre, scale by the reciprocal deviation, mix the parameters by the gates, and
    combine. -/
abbrev opsC : List (HloOp τ sig (Elt F)) :=
  [ StableHlo.unary main_v27 main_v29 (broadcastInDim S1x256x1x1 ![1] bcast_S256_S1x256x1x1_1 : (⟨S256, .f32⟩ : BufTy).Contents (Elt F) → (⟨S1x256x1x1, .f32⟩ : BufTy).Contents (Elt F)),
    StableHlo.unary main_v29 main_v30 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    StableHlo.binary main_arg0 main_v30 main_v31 (subf : (⟨S32x256x56x56, .f32⟩ : BufTy).Contents (Elt F) → (⟨S32x256x56x56, .f32⟩ : BufTy).Contents (Elt F) → (⟨S32x256x56x56, .f32⟩ : BufTy).Contents (Elt F)),
    StableHlo.nullary main_cst_9 (constant S_ .f32 0x3727C5AC#32),
    StableHlo.unary main_cst_9 main_v32 (broadcastInDim S256 ![] bcast_S_S256 : (⟨S_, .f32⟩ : BufTy).Contents (Elt F) → (⟨S256, .f32⟩ : BufTy).Contents (Elt F)),
    StableHlo.binary main_v28 main_v32 main_v33 (addf : (⟨S256, .f32⟩ : BufTy).Contents (Elt F) → (⟨S256, .f32⟩ : BufTy).Contents (Elt F) → (⟨S256, .f32⟩ : BufTy).Contents (Elt F)),
    StableHlo.unary main_v33 main_v34 (Host.rsqrt : (⟨S256, .f32⟩ : BufTy).Contents (Elt F) → (⟨S256, .f32⟩ : BufTy).Contents (Elt F)),
    StableHlo.unary main_v34 main_v35 (broadcastInDim S1x256x1x1 ![1] bcast_S256_S1x256x1x1_1 : (⟨S256, .f32⟩ : BufTy).Contents (Elt F) → (⟨S1x256x1x1, .f32⟩ : BufTy).Contents (Elt F)),
    StableHlo.unary main_v35 main_v36 (broadcastInDim S32x256x56x56 ![0, 1, 2, 3] bcast_S1x256x1x1_S32x256x56x56_0_1_2_3 : (⟨S1x256x1x1, .f32⟩ : BufTy).Contents (Elt F) → (⟨S32x256x56x56, .f32⟩ : BufTy).Contents (Elt F)),
    StableHlo.binary main_v31 main_v36 main_v37 (mulf : (⟨S32x256x56x56, .f32⟩ : BufTy).Contents (Elt F) → (⟨S32x256x56x56, .f32⟩ : BufTy).Contents (Elt F) → (⟨S32x256x56x56, .f32⟩ : BufTy).Contents (Elt F)),
    StableHlo.binary main_v24 main_arg3 main_v38 ((fun l r => Host.dotGeneral dot_S32x3_S3x256_S32x256_1_0_0_1_n_n none l r) : (⟨S32x3, .f32⟩ : BufTy).Contents (Elt F) → (⟨S3x256, .f32⟩ : BufTy).Contents (Elt F) → (⟨S32x256, .f32⟩ : BufTy).Contents (Elt F)),
    StableHlo.binary main_v24 main_arg4 main_v39 ((fun l r => Host.dotGeneral dot_S32x3_S3x256_S32x256_1_0_0_1_n_n none l r) : (⟨S32x3, .f32⟩ : BufTy).Contents (Elt F) → (⟨S3x256, .f32⟩ : BufTy).Contents (Elt F) → (⟨S32x256, .f32⟩ : BufTy).Contents (Elt F)),
    StableHlo.unary main_v38 main_v40 (broadcastInDim S32x256x1x1 ![0, 1] bcast_S32x256_S32x256x1x1_0_1 : (⟨S32x256, .f32⟩ : BufTy).Contents (Elt F) → (⟨S32x256x1x1, .f32⟩ : BufTy).Contents (Elt F)),
    StableHlo.unary main_v40 main_v41 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    StableHlo.binary main_v37 main_v41 main_v42 (mulf : (⟨S32x256x56x56, .f32⟩ : BufTy).Contents (Elt F) → (⟨S32x256x56x56, .f32⟩ : BufTy).Contents (Elt F) → (⟨S32x256x56x56, .f32⟩ : BufTy).Contents (Elt F)),
    StableHlo.unary main_v39 main_v43 (broadcastInDim S32x256x1x1 ![0, 1] bcast_S32x256_S32x256x1x1_0_1 : (⟨S32x256, .f32⟩ : BufTy).Contents (Elt F) → (⟨S32x256x1x1, .f32⟩ : BufTy).Contents (Elt F)),
    StableHlo.unary main_v43 main_v44 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    StableHlo.binary main_v42 main_v44 main_v45 (addf : (⟨S32x256x56x56, .f32⟩ : BufTy).Contents (Elt F) → (⟨S32x256x56x56, .f32⟩ : BufTy).Contents (Elt F) → (⟨S32x256x56x56, .f32⟩ : BufTy).Contents (Elt F)) ]

/-- @main's 79 operations in order, the three calls opened. -/
abbrev ops : List (HloOp τ sig (Elt F)) := opsA ++ (opsB ++ opsC)

set_option maxRecDepth 8192 in
/-- @main is that straight line: the functions' definitions unfolded at their calls, both sides are one chain of
    `hlo` steps once sequencing is reassociated. -/
theorem main_eq (c : Dev nD) : main (F := F) c = seq ops := by
  simp only [main, fn_var.body, fn_where_0.body, fn_where.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · exact List.forall_iff_forall_mem.mp opsA_sub op h
  rcases List.mem_append.mp h with h | h
  · exact List.forall_iff_forall_mem.mp opsB_sub op h
  · exact List.forall_iff_forall_mem.mp opsC_sub op h

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact opsA_fresh op h
  rcases List.mem_append.mp h with h | h
  · exact opsB_fresh op h
  · exact opsC_fresh op h

end Line

/-! ## What the buffers hold after each stretch -/

section Values

/-- The fold over two lines in a row. -/
private theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable (V : Valuation τ sig (Elt Ideal))

/-- After the first stretch the gates' buffer holds the gating head of the pooled position sums. -/
theorem gates_A : after (opsA (F := Ideal)) V (main_v24 : DevRef τ sig)
    = Cert.Chain.gatesOf (Cert.Chain.pooledOf (Cert.RChain.sumHW (V (main_arg0 : DevRef τ sig))))
        (V (main_arg1 : DevRef τ sig)) (V (main_arg2 : DevRef τ sig)) := by
  after_results_simp
  rfl

/-- The first stretch writes no argument. -/
theorem frame_A :
    after (opsA (F := Ideal)) V (main_arg0 : DevRef τ sig) = V (main_arg0 : DevRef τ sig)
    ∧ after (opsA (F := Ideal)) V (main_arg1 : DevRef τ sig) = V (main_arg1 : DevRef τ sig)
    ∧ after (opsA (F := Ideal)) V (main_arg2 : DevRef τ sig) = V (main_arg2 : DevRef τ sig)
    ∧ after (opsA (F := Ideal)) V (main_arg3 : DevRef τ sig) = V (main_arg3 : DevRef τ sig)
    ∧ after (opsA (F := Ideal)) V (main_arg4 : DevRef τ sig) = V (main_arg4 : DevRef τ sig) := by
  refine ⟨?_, ?_, ?_, ?_, ?_⟩ <;> after_results_simp

/-- After the second stretch the mean's buffer holds the per-channel mean of the activations. -/
theorem mean_B : after (opsB (F := Ideal)) V (main_v27 : DevRef τ sig)
    = Cert.RChain.meanOf (V (main_arg0 : DevRef τ sig)) := by
  after_results_simp
  rfl

/-- After the second stretch the variance's buffer holds the guarded two-pass variance of the activations. -/
theorem var_B : after (opsB (F := Ideal)) V (main_v28 : DevRef τ sig)
    = Cert.RChain.varOf (V (main_arg0 : DevRef τ sig)) := by
  after_results_simp
  rfl

/-- The second stretch writes neither an argument nor the gates. -/
theorem frame_B :
    after (opsB (F := Ideal)) V (main_arg0 : DevRef τ sig) = V (main_arg0 : DevRef τ sig)
    ∧ after (opsB (F := Ideal)) V (main_arg1 : DevRef τ sig) = V (main_arg1 : DevRef τ sig)
    ∧ after (opsB (F := Ideal)) V (main_arg2 : DevRef τ sig) = V (main_arg2 : DevRef τ sig)
    ∧ after (opsB (F := Ideal)) V (main_arg3 : DevRef τ sig) = V (main_arg3 : DevRef τ sig)
    ∧ after (opsB (F := Ideal)) V (main_arg4 : DevRef τ sig) = V (main_arg4 : DevRef τ sig)
    ∧ after (opsB (F := Ideal)) V (main_v24 : DevRef τ sig) = V (main_v24 : DevRef τ sig) := by
  refine ⟨?_, ?_, ?_, ?_, ?_, ?_⟩ <;> after_results_simp

/-- After the last stretch the result's buffer holds the normalise-then-mix expression of what the stretch reads:
    the activations, the mean, the variance, the gates and the two parameter tables. -/
theorem out_C : after (opsC (F := Ideal)) V (main_v45 : DevRef τ sig)
    = addf (mulf (mulf (subf (V (main_arg0 : DevRef τ sig)) (Cert.RChain.chanOf (V (main_v27 : DevRef τ sig))))
              (Cert.RChain.chanOf (Cert.Chain.invStdOf (V (main_v28 : DevRef τ sig)))))
            (Cert.RChain.bcOf (Cert.Chain.mixOf (V (main_v24 : DevRef τ sig)) (V (main_arg3 : DevRef τ sig)))))
        (Cert.RChain.bcOf (Cert.Chain.mixOf (V (main_v24 : DevRef τ sig)) (V (main_arg4 : DevRef τ sig)))) := by
  after_results_simp
  rfl

/-- The last stretch writes neither an argument nor the gates. -/
theorem frame_C :
    after (opsC (F := Ideal)) V (main_arg0 : DevRef τ sig) = V (main_arg0 : DevRef τ sig)
    ∧ after (opsC (F := Ideal)) V (main_arg1 : DevRef τ sig) = V (main_arg1 : DevRef τ sig)
    ∧ after (opsC (F := Ideal)) V (main_arg2 : DevRef τ sig) = V (main_arg2 : DevRef τ sig)
    ∧ after (opsC (F := Ideal)) V (main_arg3 : DevRef τ sig) = V (main_arg3 : DevRef τ sig)
    ∧ after (opsC (F := Ideal)) V (main_arg4 : DevRef τ sig) = V (main_arg4 : DevRef τ sig)
    ∧ after (opsC (F := Ideal)) V (main_v24 : DevRef τ sig) = V (main_v24 : DevRef τ sig) := by
  refine ⟨?_, ?_, ?_, ?_, ?_, ?_⟩ <;> after_results_simp

end Values

/-! ## The whole line, and the run -/

section Whole

variable (V : Valuation τ sig (Elt Ideal))

/-- The gates after the whole line: written by the first stretch, untouched by the other two. -/
theorem gates_eq : after (ops (F := Ideal)) V (main_v24 : DevRef τ sig)
    = Cert.Chain.gatesOf (Cert.Chain.pooledOf (Cert.RChain.sumHW (V (main_arg0 : DevRef τ sig))))
        (V (main_arg1 : DevRef τ sig)) (V (main_arg2 : DevRef τ sig)) := by
  rw [after_app, after_app, (frame_C _).2.2.2.2.2, (frame_B _).2.2.2.2.2, gates_A]

/-- The result after the whole line: the last stretch's expression, read at what the first two leave (the gates, the
    mean and the variance of the activations, the arguments as launched), which is the normalise-then-mix expression
    of the launched arrays. -/
theorem out_eq : after (ops (F := Ideal)) V (main_v45 : DevRef τ sig)
    = Cert.RChain.outOf (V (main_arg0 : DevRef τ sig))
        (Cert.Chain.invStdOf (Cert.RChain.varOf (V (main_arg0 : DevRef τ sig))))
        (Cert.Chain.mixOf (Cert.Chain.gatesOf (Cert.Chain.pooledOf (Cert.RChain.sumHW (V (main_arg0 : DevRef τ sig))))
            (V (main_arg1 : DevRef τ sig)) (V (main_arg2 : DevRef τ sig))) (V (main_arg3 : DevRef τ sig)))
        (Cert.Chain.mixOf (Cert.Chain.gatesOf (Cert.Chain.pooledOf (Cert.RChain.sumHW (V (main_arg0 : DevRef τ sig))))
            (V (main_arg1 : DevRef τ sig)) (V (main_arg2 : DevRef τ sig))) (V (main_arg4 : DevRef τ sig))) := by
  rw [after_app, after_app, out_C, mean_B, var_B, (frame_B _).1, (frame_B _).2.2.2.1, (frame_B _).2.2.2.2.1,
    (frame_B _).2.2.2.2.2, gates_A, (frame_A _).1, (frame_A _).2.2.2.1, (frame_A _).2.2.2.2]
  rfl

/-- No stretch writes an argument. -/
theorem args_eq :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig) := by
  refine ⟨?_, ?_, ?_, ?_, ?_⟩
  · rw [after_app, after_app, (frame_C _).1, (frame_B _).1, (frame_A _).1]
  · rw [after_app, after_app, (frame_C _).2.1, (frame_B _).2.1, (frame_A _).2.1]
  · rw [after_app, after_app, (frame_C _).2.2.1, (frame_B _).2.2.1, (frame_A _).2.2.1]
  · rw [after_app, after_app, (frame_C _).2.2.2.1, (frame_B _).2.2.2.1, (frame_A _).2.2.2.1]
  · rw [after_app, after_app, (frame_C _).2.2.2.2.1, (frame_B _).2.2.2.2.1, (frame_A _).2.2.2.2]

end Whole

variable (m : (ℓ : Loc nD τ sig) → Buf (Elt Ideal) ℓ) (ρ : Dev nD → PrngReg)

/-- The launched arrays of the reference, at their literal types. -/
abbrev xR (c : Dev nD) : S32x256x56x56.Idx → EReal := m ((c.tc : Thread nD τ).loc main_arg0)
abbrev w1R (c : Dev nD) : S25x256.Idx → EReal := m ((c.tc : Thread nD τ).loc main_arg1)
abbrev w2R (c : Dev nD) : S3x25.Idx → EReal := m ((c.tc : Thread nD τ).loc main_arg2)
abbrev gR (c : Dev nD) : S3x256.Idx → EReal := m ((c.tc : Thread nD τ).loc main_arg3)
abbrev bR (c : Dev nD) : S3x256.Idx → EReal := m ((c.tc : Thread nD τ).loc main_arg4)

/-- The reference's gates: the gating head of the pooled position sums. -/
def gatesR (c : Dev nD) : S32x3.Idx → EReal :=
  Cert.Chain.gatesOf (Cert.Chain.pooledOf (Cert.RChain.sumHW (xR m c))) (w1R m c) (w2R m c)

/-- The reference's output: `((x − mean) · inv_std) · (gates · γ) + gates · β`. -/
def outR (c : Dev nD) : S32x256x56x56.Idx → EReal :=
  Cert.RChain.outOf (xR m c) (Cert.Chain.invStdOf (Cert.RChain.varOf (xR m c)))
    (Cert.Chain.mixOf (gatesR m c) (gR m c)) (Cert.Chain.mixOf (gatesR m c) (bR m c))

/-- Every weakly fair execution of the reference's @main terminates with the two results at `outR` and `gatesR` of
    the launched arrays, and the arguments unchanged. -/
theorem run :
    θ_run (defs (F := Ideal)) (onTc (τ := τ) (main (F := Ideal))) ⟨m, fun _ => 0, ρ⟩ fun r => ∀ c : Dev nD,
      r.2.mem ((c.tc : Thread nD τ).loc main_v45) = outR m c
      ∧ r.2.mem ((c.tc : Thread nD τ).loc main_v24) = gatesR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨(h c main_v45).trans (out_eq (launchContents m c)),
        (h c main_v24).trans (gates_eq (launchContents m c)),
        (h c main_arg0).trans (args_eq (launchContents m c)).1,
        (h c main_arg1).trans (args_eq (launchContents m c)).2.1,
        (h c main_arg2).trans (args_eq (launchContents m c)).2.2.1,
        (h c main_arg3).trans (args_eq (launchContents m c)).2.2.2.1,
        (h c main_arg4).trans (args_eq (launchContents m c)).2.2.2.2⟩)
    (run_seq scopedRefs_eq scopedSems_eq defs main (fun _ => ops) main_eq (fun _ => ops_sub) m ρ (fun _ => ops_fresh))

end Cert.RRun

end
-- ==== Proof.Finite.lean ====
/-
  The precondition read: `finite_inputs` holding of the launched arrays says every entry of every input array is a
  real number.
-/
import proofs.«121786_j24163486007874_1_alg».proof.Defs
import proofs.«121786_j24163486007874_1_alg».proof.Proof.Gen.Pre_finite_inputs
import proofs.«121786_j24163486007874_1_alg».proof.Proof.Gen.KernelIdeal
import proofs.«121786_j24163486007874_1_alg».proof.Proof.Consts
import Idealize.ShloMosaic.Lib.ValueIdx
import Idealize.ShloMosaic.Lib.ReduceAll

noncomputable section

namespace Cert.Finite

open Idealize.ShloMosaic Idealize.SL.Sem Idealize.ShloMosaic.ValueIdx
open Cert.Consts
open Cert.KernelIdeal

/-- The result shape of a reduction over all axes has exactly one index. -/
instance subsingleton_scalar_idx : Subsingleton (⟨0, ![]⟩ : Shape).Idx := ⟨fun a b => funext fun d => d.elim0⟩

/-- The pattern of `+inf` denotes `⊤`. -/
private theorem ofBits_posinf : Ideal.ofBits .f32 0x7F800000#32 = ⊤ := by
  simp [Ideal.ofBits, Ideal.ieee]

/-- An extended real whose absolute value `max x (-x)` is strictly below `+inf` is a real: at either infinity the
    absolute value is `⊤`, which is not below itself. -/
private theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.ofBits_def, ofBits_posinf] at h
  change Ideal.cmp .olt (max x (-x)) ⊤ = 1#1 at h
  induction x using EReal.rec with
  | bot => simp [Ideal.cmp] at h
  | coe r => exact ⟨r, rfl⟩
  | top => simp [Ideal.cmp] at h

/-- `jnp.all(|x| < +inf)` read back: if the conjunction over every index of the comparison `|x| < +inf` is one, every
    entry of `x` is a real. -/
private theorem allReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1)
    (e : Host.reduce IntOp.andi
        (cmpf .olt (Host.absf x) (broadcastInDim s ![] hb (constant (F := Ideal) ⟨0, ![]⟩ .f32 0x7F800000#32)))
        init hr h0 ValueIdx.ix0 = 1#1) : AllReal x := by
  intro i
  have hi := Host.reduce_andi_all _ init hr h0 ValueIdx.ix0 e i
  exact real_of_abs_lt_inf (x i) hi

/-- Under the precondition every input array of the kernel's program is real-valued. -/
theorem inputs_real (m : (ℓ : Loc nD τ sig) → Buf (Elt Ideal) ℓ) (h : Cert.Pre_KernelIdeal m) (c : Dev nD) :
    AllReal (m ((c.tc : Thread nD τ).loc main_arg0) : S32x256x56x56.Idx → EReal)
    ∧ AllReal (m ((c.tc : Thread nD τ).loc main_arg1) : S25x256.Idx → EReal)
    ∧ AllReal (m ((c.tc : Thread nD τ).loc main_arg2) : S3x25.Idx → EReal)
    ∧ AllReal (m ((c.tc : Thread nD τ).loc main_arg3) : S3x256.Idx → EReal)
    ∧ AllReal (m ((c.tc : Thread nD τ).loc main_arg4) : S3x256.Idx → EReal) := by
  have h' := congrFun (h c) ValueIdx.ix0
  dsimp only [Cert.Pre_finite_inputs.fn, Cert.Pre_finite_inputs.fn_part1] at h'
  simp only [Idealize.ShloMosaic.andi, IntOp.andi_eq_one] at h'
  obtain ⟨⟨⟨⟨e0, e1⟩, e2⟩, e3⟩, e4⟩ := h'
  exact ⟨allReal_of_all _ _ _ _ _ e0, allReal_of_all _ _ _ _ _ e1, allReal_of_all _ _ _ _ _ e2,
    allReal_of_all _ _ _ _ _ e3, allReal_of_all _ _ _ _ _ e4⟩

end Cert.Finite

end
-- ==== Proof.lean ====
/-
  The certificate: a gated BatchNorm mix.  Both programs compute, from activations x[b, c, h, w] and four small
  parameter tables, the softmax gates of a two-layer head on the pooled means of x and the output
      out = x̂ · (gates · γ) + gates · β,     x̂ = (x − mean_c) / √(var_c + ε),
  with mean_c and var_c taken over batch and positions.  The kernel's program makes one pass for the per-(b, c) sums of
  x and x², forms var_c as E[x²] − mean_c², folds the normalisation and the mix into a per-(b, c) multiplier and offset
  on the host, and applies out = x · a + d in a second pass; the reference subtracts the mean first and takes the
  two-pass variance.  Over the reals the two agree; the finiteness precondition is what lets the extended-real
  arithmetic of the ideal values be done in the reals.

  The three frames: the two kernel programs' from their frame certificates, the reference's from its run.  The
  idealization ledger is empty.  The algebraic claim: the kernel program's run with both results named (KRun), their
  values as functions of the launched arrays (KValue, over KStats, KAffine, KHost and the joining law in Bridge), and the
  reference's run (RRun), both stated with the same two expressions.
-/
import proofs.«121786_j24163486007874_1_alg».proof.Defs
import proofs.«121786_j24163486007874_1_alg».proof.Proof.Gen.Kernel
import proofs.«121786_j24163486007874_1_alg».proof.Proof.Gen.Kernel.Skeleton
import proofs.«121786_j24163486007874_1_alg».proof.Proof.Gen.Kernel.Launch
import proofs.«121786_j24163486007874_1_alg».proof.Proof.Gen.Kernel.Points
import proofs.«121786_j24163486007874_1_alg».proof.Proof.Gen.Kernel.Frame
import proofs.«121786_j24163486007874_1_alg».proof.Proof.Gen.KernelIdeal
import proofs.«121786_j24163486007874_1_alg».proof.Proof.Gen.KernelIdeal.Skeleton
import proofs.«121786_j24163486007874_1_alg».proof.Proof.Gen.KernelIdeal.Launch
import proofs.«121786_j24163486007874_1_alg».proof.Proof.Gen.KernelIdeal.Points
import proofs.«121786_j24163486007874_1_alg».proof.Proof.Gen.KernelIdeal.Frame
import proofs.«121786_j24163486007874_1_alg».proof.Proof.Gen.ReferenceIdeal
import proofs.«121786_j24163486007874_1_alg».proof.Proof.Gen.Pre_finite_inputs
import proofs.«121786_j24163486007874_1_alg».proof.Proof.KRun
import proofs.«121786_j24163486007874_1_alg».proof.Proof.KValue
import proofs.«121786_j24163486007874_1_alg».proof.Proof.RRun
import proofs.«121786_j24163486007874_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.RRun.run m ρ)

/-- The ideal pass rewrote nothing. -/
theorem preserves : Cert.preserves_Kernel_KernelIdeal := trivial

/-- Both runs end with the output at the reference's expression of the launched arrays and the gates at the gating
    head of the pooled position sums: the kernel program's by its value lemmas under finiteness, the reference's by its
    run, the two memories agreeing on the arguments. -/
theorem algebraic : Cert.algebraic_KernelIdeal_ReferenceIdeal := by
  intro m ρ m' ρ' hpre hagree
  refine ⟨fun c => Cert.RRun.outR m' c, fun c => Cert.RRun.gatesR m' c, ?_, Cert.RRun.run m' ρ'⟩
  refine (θ_run Cert.KernelIdeal.defs _ _).mono (fun r h c => ?_) (Cert.KernelIdeal.GenRun.run (F := Ideal) m ρ)
  obtain ⟨h49, h34, hargs⟩ := h c
  obtain ⟨hx, hw1, hw2, hγ, hβ⟩ := Cert.Finite.inputs_real m hpre c
  obtain ⟨e0, e1, e2, e3, e4⟩ := hagree c
  refine ⟨h49.trans ?_, h34.trans ?_, hargs⟩
  · refine (Cert.KValue.out_value m ρ c hx hw1 hw2 hγ hβ).trans ?_
    show _ = Cert.RRun.outR m' c
    unfold Cert.RRun.outR Cert.RRun.gatesR Cert.Bridge.gOf Cert.RRun.xR Cert.RRun.w1R Cert.RRun.w2R Cert.RRun.gR Cert.RRun.bR
    rw [e0, e1, e2, e3, e4]
  · refine (Cert.KValue.gates_value m ρ c).trans ?_
    show _ = Cert.RRun.gatesR m' c
    unfold Cert.RRun.gatesR Cert.Bridge.gOf Cert.RRun.xR Cert.RRun.w1R Cert.RRun.w2R
    rw [e0, e1, e2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
